-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S1000x4x64 : Shape := ⟨3, ![1000, 4, 64]⟩
abbrev S1000x4 : Shape := ⟨2, ![1000, 4]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1000x4x64 : S_.BroadcastsInDim S1000x4x64 (![] : Fin 0 → Fin S1000x4x64.rank)
  reducesTo_S1000x4x64_S_d0_1_2 : S1000x4x64.ReducesTo [0, 1, 2] S_
  bcast_S_S1000x4 : S_.BroadcastsInDim S1000x4 (![] : Fin 0 → Fin S1000x4.rank)
  reducesTo_S1000x4_S_d0_1 : S1000x4.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_arg1 : IVec S1048576 32) (main_arg2 : IVec S1048576 32) (main_v13 : IVec S_ 1) (main_v15 : IVec S1048576 1) (main_c_5 : IVec S_ 32) : IVec S_ 1 :=
  let main_v16 : IVec S1048576 32 := broadcastInDim S1048576 ![] bcast_S_S1048576 main_c_5
  let main_v17 : IVec S1048576 1 := cmpi .slt main_arg1 main_v16
  let main_v18 : IVec S1048576 1 := andi main_v15 main_v17
  let main_c_6 : IVec S_ 1 := constantI S_ 1 1#1
  let main_v19 : IVec S_ 1 := (fun x v => Host.reduce IntOp.andi x v reducesTo_S1048576_S_d0 h_S_) main_v18 main_c_6
  let main_v20 : IVec S_ 1 := andi main_v13 main_v19
  let main_c_7 : IVec S_ 32 := constantI S_ 32 0#32
  let main_v21 : IVec S1048576 32 := broadcastInDim S1048576 ![] bcast_S_S1048576 main_c_7
  let main_v22 : IVec S1048576 1 := cmpi .sge main_arg2 main_v21
  let main_c_8 : IVec S_ 32 := constantI S_ 32 4#32
  let main_v23 : IVec S1048576 32 := broadcastInDim S1048576 ![] bcast_S_S1048576 main_c_8
  let main_v24 : IVec S1048576 1 := cmpi .slt main_arg2 main_v23
  let main_v25 : IVec S1048576 1 := andi main_v22 main_v24
  let main_c_9 : IVec S_ 1 := constantI S_ 1 1#1
  let main_v26 : IVec S_ 1 := (fun x v => Host.reduce IntOp.andi x v reducesTo_S1048576_S_d0 h_S_) main_v25 main_c_9
  let main_v27 : IVec S_ 1 := andi main_v20 main_v26
  main_v27

def fn {F : FTy → Type} [FloatOps F] (main_arg0 : FVec F S1048576x64 .f32) (main_arg1 : IVec S1048576 32) (main_arg2 : IVec S1048576 32) (main_arg3 : FVec F S1000x4x64 .f32) (main_arg4 : FVec F S1000x4 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1000x4x64 .f32 := Host.absf main_arg3
  let main_cst_0 : FVec F S_ .f32 := constant S_ .f32 0x7F800000#32
  let main_v5 : FVec F S1000x4x64 .f32 := broadcastInDim S1000x4x64 ![] bcast_S_S1000x4x64 main_cst_0
  let main_v6 : IVec S1000x4x64 1 := cmpf .olt main_v4 main_v5
  let main_c_1 : IVec S_ 1 := constantI S_ 1 1#1
  let main_v7 : IVec S_ 1 := (fun x v => Host.reduce IntOp.andi x v reducesTo_S1000x4x64_S_d0_1_2 h_S_) main_v6 main_c_1
  let main_v8 : IVec S_ 1 := andi main_v3 main_v7
  let main_v9 : FVec F S1000x4 .f32 := Host.absf main_arg4
  let main_cst_2 : FVec F S_ .f32 := constant S_ .f32 0x7F800000#32
  let main_v10 : FVec F S1000x4 .f32 := broadcastInDim S1000x4 ![] bcast_S_S1000x4 main_cst_2
  let main_v11 : IVec S1000x4 1 := cmpf .olt main_v9 main_v10
  let main_c_3 : IVec S_ 1 := constantI S_ 1 1#1
  let main_v12 : IVec S_ 1 := (fun x v => Host.reduce IntOp.andi x v reducesTo_S1000x4_S_d0_1 h_S_) main_v11 main_c_3
  let main_v13 : IVec S_ 1 := andi main_v8 main_v12
  let main_c_4 : IVec S_ 32 := constantI S_ 32 0#32
  let main_v14 : IVec S1048576 32 := broadcastInDim S1048576 ![] bcast_S_S1048576 main_c_4
  let main_v15 : IVec S1048576 1 := cmpi .sge main_arg1 main_v14
  let main_c_5 : IVec S_ 32 := constantI S_ 32 1000#32
  fn_part1 (F := F) main_arg1 main_arg2 main_v13 main_v15 main_c_5
-- ==== Kernel.lean ====
abbrev S1048576x64 : Shape := ⟨2, ![1048576, 64]⟩
abbrev S1048576 : Shape := ⟨1, ![1048576]⟩
abbrev S1000x4x64 : Shape := ⟨3, ![1000, 4, 64]⟩
abbrev S1000x4 : Shape := ⟨2, ![1000, 4]⟩
abbrev S2x256x1024 : Shape := ⟨3, ![2, 256, 1024]⟩
abbrev S2x4x1024 : Shape := ⟨3, ![2, 4, 1024]⟩
abbrev S4096x64 : Shape := ⟨2, ![4096, 64]⟩
abbrev S4096 : Shape := ⟨1, ![4096]⟩
abbrev S1x256x1024 : Shape := ⟨3, ![1, 256, 1024]⟩
abbrev S1x4x1024 : Shape := ⟨3, ![1, 4, 1024]⟩
abbrev S256x1024 : Shape := ⟨2, ![256, 1024]⟩
abbrev S4x1024 : Shape := ⟨2, ![4, 1024]⟩
abbrev S4096x1 : Shape := ⟨2, ![4096, 1]⟩
abbrev S4096x256 : Shape := ⟨2, ![4096, 256]⟩
abbrev S1x256 : Shape := ⟨2, ![1, 256]⟩
abbrev S1x4 : Shape := ⟨2, ![1, 4]⟩
abbrev S4096x4 : Shape := ⟨2, ![4096, 4]⟩
abbrev S256x256 : Shape := ⟨2, ![256, 256]⟩
abbrev S4x256 : Shape := ⟨2, ![4, 256]⟩
abbrev S_ : Shape := ⟨0, ![]⟩
abbrev S4x64x1024 : Shape := ⟨3, ![4, 64, 1024]⟩
abbrev S4x64x1000 : Shape := ⟨3, ![4, 64, 1000]⟩
abbrev S4x1000 : Shape := ⟨2, ![4, 1000]⟩
abbrev S1000x4x1 : Shape := ⟨3, ![1000, 4, 1]⟩

abbrev nBuf : Space → Nat
  | .hbm => 36
  | .vmem => 12
  | .smem => 0
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S1048576, .i32⟩
  | .hbm, ⟨3, _⟩ => ⟨S1000x4x64, .f32⟩
  | .hbm, ⟨4, _⟩ => ⟨S1000x4, .f32⟩
  | .hbm, ⟨5, _⟩ => ⟨S2x256x1024, .f32⟩
  | .hbm, ⟨6, _⟩ => ⟨S2x4x1024, .f32⟩
  | .hbm, ⟨7, _⟩ => ⟨S_, .f32⟩
  | .hbm, ⟨8, _⟩ => ⟨S256x1024, .f32⟩
  | .hbm, ⟨9, _⟩ => ⟨S_, .f32⟩
  | .hbm, ⟨10, _⟩ => ⟨S4x1024, .f32⟩
  | .hbm, ⟨11, _⟩ => ⟨S4x64x1024, .f32⟩
  | .hbm, ⟨12, _⟩ => ⟨S4x64x1000, .f32⟩
  | .hbm, ⟨13, _⟩ => ⟨S1000x4x64, .f32⟩
  | .hbm, ⟨14, _⟩ => ⟨S4x1000, .f32⟩
  | .hbm, ⟨15, _⟩ => ⟨S1000x4, .f32⟩
  | .hbm, ⟨16, _⟩ => ⟨S_, .f32⟩
  | .hbm, ⟨17, _⟩ => ⟨S1000x4, .f32⟩
  | .hbm, ⟨18, _⟩ => ⟨S1000x4, .f32⟩
  | .hbm, ⟨19, _⟩ => ⟨S1000x4x1, .f32⟩
  | .hbm, ⟨20, _⟩ => ⟨S1000x4x64, .f32⟩
  | .hbm, ⟨21, _⟩ => ⟨S1000x4x64, .f32⟩
  | .hbm, ⟨22, _⟩ => ⟨S_, .f32⟩
  | .hbm, ⟨23, _⟩ => ⟨S1000x4x64, .f32⟩
  | .hbm, ⟨24, _⟩ => ⟨S1000x4x64, .f32⟩
  | .hbm, ⟨25, _⟩ => ⟨S_, .f32⟩
  | .hbm, ⟨26, _⟩ => ⟨S1000x4x64, .f32⟩
  | .hbm, ⟨27, _⟩ => ⟨S1000x4x64, .f32⟩
  | .hbm, ⟨28, _⟩ => ⟨S1000x4x64, .f32⟩
  | .hbm, ⟨29, _⟩ => ⟨S_, .f32⟩
  | .hbm, ⟨30, _⟩ => ⟨S1000x4, .f32⟩
  | .hbm, ⟨31, _⟩ => ⟨S1000x4, .i1⟩
  | .hbm, ⟨32, _⟩ => ⟨S1000x4x1, .i1⟩
  | .hbm, ⟨33, _⟩ => ⟨S1000x4x64, .i1⟩
  | .hbm, ⟨34, _⟩ => ⟨S1000x4x64, .f32⟩
  | .hbm, ⟨35, _⟩ => ⟨S1000x4, .f32⟩
  | .local _ .vmem, ⟨0, _⟩ => ⟨S4096x64, .f32⟩
  | .local _ .vmem, ⟨1, _⟩ => ⟨S4096x64, .f32⟩
  | .local _ .vmem, ⟨2, _⟩ => ⟨S4096, .i32⟩
  | .local _ .vmem, ⟨3, _⟩ => ⟨S4096, .i32⟩
  | .local _ .vmem, ⟨4, _⟩ => ⟨S4096, .i32⟩
  | .local _ .vmem, ⟨5, _⟩ => ⟨S4096, .i32⟩
  | .local _ .vmem, ⟨6, _⟩ => ⟨S1x256x1024, .f32⟩
  | .local _ .vmem, ⟨7, _⟩ => ⟨S1x256x1024, .f32⟩
  | .local _ .vmem, ⟨8, _⟩ => ⟨S1x4x1024, .f32⟩
  | .local _ .vmem, ⟨9, _⟩ => ⟨S1x4x1024, .f32⟩
  | .local _ .vmem, ⟨10, _⟩ => ⟨S256x1024, .f32⟩
  | .local _ .vmem, ⟨11, _⟩ => ⟨S4x1024, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 128], ![false, false]⟩

@[reducible] def k0_t1_loop : Scf.Loop 32 :=
  let c0_i32_4 : BitVec 32 := 0#32
  let c4_i32 : BitVec 32 := 4#32
  let v26 : BitVec 32 := Scalar.addi c0_i32_4 c4_i32
  let c1_i32 : BitVec 32 := 1#32
  ⟨c0_i32_4, v26, c1_i32⟩
def k0_mult1 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c256_i32 : BitVec 32 := 256#32
  let v35 : BitVec 32 := Scalar.muli arg9 c256_i32
  v35
def k0_off1 (k0_t1 : Fin k0_t1_loop.trips) : Fin 2 → Nat :=
  let c0_18 : Index := 0#32
  let c0_i32_4 : BitVec 32 := 0#32
  let c1_i32 : BitVec 32 := 1#32
  let arg9 : BitVec 32 := Scf.iv c0_i32_4 c1_i32 k0_t1
  let c256_i32 : BitVec 32 := 256#32
  let v35 : BitVec 32 := Scalar.muli arg9 c256_i32
  let v36 : BitVec 32 := v35
  let v47 : Index := Scalar.indexCast v36
  ![0, v47.toNat]
def k0_off2 (k0_t1 : Fin k0_t1_loop.trips) : Fin 2 → Nat :=
  let c0_20 : Index := 0#32
  let c0_i32_4 : BitVec 32 := 0#32
  let c1_i32 : BitVec 32 := 1#32
  let arg9 : BitVec 32 := Scf.iv c0_i32_4 c1_i32 k0_t1
  let c256_i32 : BitVec 32 := 256#32
  let v35 : BitVec 32 := Scalar.muli arg9 c256_i32
  let v36 : BitVec 32 := v35
  let v54 : Index := Scalar.indexCast v36
  ![0, v54.toNat]
def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S4096_S4096_0 : ∀ a, (![0] : Fin 1 → Nat) a + S4096.size a ≤ S4096.size a
  h_S4096 : 0 < S4096.numel
  shapeCasts_S4096_S4096x1 : S4096.ShapeCasts S4096x1
  concatenates_S4096x64_S4096x64_S4096x64_S4096x64_S4096x256_d1 : Shape.Concatenates [S4096x64, S4096x64, S4096x64, S4096x64] S4096x256 1
  iota_S1x256_d1_w32 : S1x256.Iotas .tc 32 [1]
  broadcasts_S1x256_S4096x256 : S1x256.Broadcasts S4096x256
  broadcasts_S4096x1_S4096x256 : S4096x1.Broadcasts S4096x256
  iota_S1x4_d1_w32 : S1x4.Iotas .tc 32 [1]
  broadcasts_S1x4_S4096x4 : S1x4.Broadcasts S4096x4
  broadcasts_S4096x1_S4096x4 : S4096x1.Broadcasts S4096x4
  natLt_1_32 : 1 < 32
  h_S256x256 : 0 < S256x256.numel
  shapeCasts_S256x256_S256x256 : S256x256.ShapeCasts S256x256
  h_S4x256 : 0 < S4x256.numel
  shapeCasts_S4x256_S4x256 : S4x256.ShapeCasts S4x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  shapeCasts_S4x1024_S1x4x1024 : S4x1024.ShapeCasts S1x4x1024
  reducesTo_S2x256x1024_S256x1024_d0 : S2x256x1024.ReducesTo [0] S256x1024
  h_S_ : 0 < S_.numel
  reducesTo_S2x4x1024_S4x1024_d0 : S2x4x1024.ReducesTo [0] S4x1024
  shapeCasts_S256x1024_S4x64x1024 : S256x1024.ShapeCasts S4x64x1024
  slices_S4x64x1024_S4x64x1000_0_0_0 : S4x64x1024.Slices ![0, 0, 0] S4x64x1000
  transposes_S4x64x1000_S1000x4x64_2_0_1 : S4x64x1000.Transposes [2, 0, 1] S1000x4x64
  slices_S4x1024_S4x1000_0_0 : S4x1024.Slices ![0, 0] S4x1000
  transposes_S4x1000_S1000x4_1_0 : S4x1000.Transposes [1, 0] S1000x4
  bcast_S_S1000x4 : S_.BroadcastsInDim S1000x4 (![] : Fin 0 → Fin S1000x4.rank)
  bcast_S1000x4_S1000x4x1_0_1 : S1000x4.BroadcastsInDim S1000x4x1 (![0, 1] : Fin 2 → Fin S1000x4x1.rank)
  bcast_S1000x4x1_S1000x4x64_0_1_2 : S1000x4x1.BroadcastsInDim S1000x4x64 (![0, 1, 2] : Fin 3 → Fin S1000x4x64.rank)
  bcast_S_S1000x4x64 : S_.BroadcastsInDim S1000x4x64 (![] : Fin 0 → Fin S1000x4x64.rank)
  dot_S4096x256_S4096x256_S256x256_0_0_1_1_n_n_wf : DotDims.WF S4096x256 S4096x256 S256x256 [0] [0] [1] [1] [] []
  dot_S4096x4_S4096x256_S4x256_0_0_1_1_n_n_wf : DotDims.WF S4096x4 S4096x256 S4x256 [0] [0] [1] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x256.size a ≤ S256x1024.size a
  k0_off2_inb : ∀ k0_t1 : Fin k0_t1_loop.trips, ∀ a, (k0_off2 k0_t1) a + S4x256.size a ≤ S4x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1048576x64.size a
  hwx0_0 : ∀ i : grid0.Coords, EltTy.bits .f32 = 32 ∨ (Rect.block (s := S1048576x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S1048576.size a
  hwx0_1 : ∀ i : grid0.Coords, EltTy.bits .i32 = 32 ∨ (Rect.block (s := S1048576) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S1048576.size a
  hwx0_2 : ∀ i : grid0.Coords, EltTy.bits .i32 = 32 ∨ (Rect.block (s := S1048576) S4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S2x256x1024.size a
  hwx0_3 : ∀ i : grid0.Coords, EltTy.bits .f32 = 32 ∨ (Rect.block (s := S2x256x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x1024.size a ≤ S2x4x1024.size a
  hwx0_4 : ∀ i : grid0.Coords, EltTy.bits .f32 = 32 ∨ (Rect.block (s := S2x4x1024) S1x4x1024.size (cc0_transform_4 i) (hinb0_4 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf
def dot_S4096x4_S4096x256_S4x256_0_0_1_1_n_n : DotDims S4096x4 S4096x256 S4x256 where
  lhsContracting := [0]
  rhsContracting := [0]
  lhsNonContracting := [1]
  rhsNonContracting := [1]
  lhsBatch := []
  rhsBatch := []
  wf := dot_S4096x4_S4096x256_S4x256_0_0_1_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x4x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576 : Shape := ⟨1, ![1048576]⟩
abbrev S1000x4x64 : Shape := ⟨3, ![1000, 4, 64]⟩
abbrev S1000x4 : Shape := ⟨2, ![1000, 4]⟩
abbrev S_ : Shape := ⟨0, ![]⟩
abbrev S4000x64 : Shape := ⟨2, ![4000, 64]⟩
abbrev S1048576x1 : Shape := ⟨2, ![1048576, 1]⟩
abbrev S4000 : Shape := ⟨1, ![4000]⟩
abbrev S4000x1 : Shape := ⟨2, ![4000, 1]⟩

abbrev nBuf : Space → Nat
  | .hbm => 42
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S1048576, .i32⟩
  | .hbm, ⟨3, _⟩ => ⟨S1000x4x64, .f32⟩
  | .hbm, ⟨4, _⟩ => ⟨S1000x4, .f32⟩
  | .hbm, ⟨5, _⟩ => ⟨S_, .i32⟩
  | .hbm, ⟨6, _⟩ => ⟨S1048576, .i32⟩
  | .hbm, ⟨7, _⟩ => ⟨S1048576, .i32⟩
  | .hbm, ⟨8, _⟩ => ⟨S1048576, .i32⟩
  | .hbm, ⟨9, _⟩ => ⟨S_, .f32⟩
  | .hbm, ⟨10, _⟩ => ⟨S4000x64, .f32⟩
  | .hbm, ⟨11, _⟩ => ⟨S1048576x1, .i32⟩
  | .hbm, ⟨12, _⟩ => ⟨S4000x64, .f32⟩
  | .hbm, ⟨13, _⟩ => ⟨S_, .f32⟩
  | .hbm, ⟨14, _⟩ => ⟨S1048576, .f32⟩
  | .hbm, ⟨15, _⟩ => ⟨S_, .f32⟩
  | .hbm, ⟨16, _⟩ => ⟨S4000, .f32⟩
  | .hbm, ⟨17, _⟩ => ⟨S1048576x1, .i32⟩
  | .hbm, ⟨18, _⟩ => ⟨S4000, .f32⟩
  | .hbm, ⟨19, _⟩ => ⟨S_, .f32⟩
  | .hbm, ⟨20, _⟩ => ⟨S4000, .f32⟩
  | .hbm, ⟨21, _⟩ => ⟨S4000, .f32⟩
  | .hbm, ⟨22, _⟩ => ⟨S4000x1, .f32⟩
  | .hbm, ⟨23, _⟩ => ⟨S4000x64, .f32⟩
  | .hbm, ⟨24, _⟩ => ⟨S4000x64, .f32⟩
  | .hbm, ⟨25, _⟩ => ⟨S4000x64, .f32⟩
  | .hbm, ⟨26, _⟩ => ⟨S_, .f32⟩
  | .hbm, ⟨27, _⟩ => ⟨S4000x64, .f32⟩
  | .hbm, ⟨28, _⟩ => ⟨S4000x64, .f32⟩
  | .hbm, ⟨29, _⟩ => ⟨S_, .f32⟩
  | .hbm, ⟨30, _⟩ => ⟨S4000x64, .f32⟩
  | .hbm, ⟨31, _⟩ => ⟨S4000x64, .f32⟩
  | .hbm, ⟨32, _⟩ => ⟨S4000x64, .f32⟩
  | .hbm, ⟨33, _⟩ => ⟨S_, .f32⟩
  | .hbm, ⟨34, _⟩ => ⟨S4000, .f32⟩
  | .hbm, ⟨35, _⟩ => ⟨S4000, .i1⟩
  | .hbm, ⟨36, _⟩ => ⟨S4000x1, .i1⟩
  | .hbm, ⟨37, _⟩ => ⟨S4000x64, .i1⟩
  | .hbm, ⟨38, _⟩ => ⟨S4000x64, .f32⟩
  | .hbm, ⟨39, _⟩ => ⟨S1000x4x64, .f32⟩
  | .hbm, ⟨40, _⟩ => ⟨S1000x4, .f32⟩
  | .hbm, ⟨41, _⟩ => ⟨S1000x4, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S_S4000x64 : S_.BroadcastsInDim S4000x64 (![] : Fin 0 → Fin S4000x64.rank)
  bcast_S1048576_S1048576x1_0 : S1048576.BroadcastsInDim S1048576x1 (![0] : Fin 1 → Fin S1048576x1.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x64_0_1 : S4000x1.BroadcastsInDim S4000x64 (![0, 1] : Fin 2 → Fin S4000x64.rank)
  shapeCasts_S1000x4x64_S4000x64 : S1000x4x64.ShapeCasts S4000x64
  shapeCasts_S4000x64_S1000x4x64 : S4000x64.ShapeCasts S1000x4x64
  shapeCasts_S4000_S1000x4 : S4000.ShapeCasts S1000x4
  scatter_S4000x64_S1048576x1_S1048576x64_1_0_0_1_wf : ScatterDims.WF S4000x64 S1048576x1 S1048576x64 [1] [0] [0] 1
  scatter_S4000_S1048576x1_S1048576_n_0_0_1_wf : ScatterDims.WF S4000 S1048576x1 S1048576 [] [0] [0] 1

variable [Facts₀]

def scatter_S4000x64_S1048576x1_S1048576x64_1_0_0_1 : ScatterDims S4000x64 S1048576x1 S1048576x64 where
  updateWindowDims := [1]
  insertedWindowDims := [0]
  scatterDimsToOperandDims := [0]
  indexVectorDim := 1
  wf := scatter_S4000x64_S1048576x1_S1048576x64_1_0_0_1_wf
def scatter_S4000_S1048576x1_S1048576_n_0_0_1 : ScatterDims S4000 S1048576x1 S1048576 where
  updateWindowDims := []
  insertedWindowDims := [0]
  scatterDimsToOperandDims := [0]
  indexVectorDim := 1
  wf := scatter_S4000_S1048576x1_S1048576_n_0_0_1_wf

class Facts : Prop extends Facts₀ where

variable [Facts]
-- ==== Proof.Spec.lean ====
/-
  The mathematics of the certificate, with no program in sight.

  A row n of the feature table carries a class word and a stage word. For a class k below 1000, a stage j below 4 and a
  feature coordinate d below 64, the SEGMENT SUM is the sum, over all rows whose class word is k and whose stage word is j,
  of the row's d-th feature, and the SEGMENT COUNT is the number of such rows (as an extended real). Both programs
  compute, from those two arrays, the prototype blended with the segment mean where the count is positive, and the
  counts increased by the segment counts. This file names those functions; the other files show that each program's
  result is them.
-/
import Idealize.ShloMosaic.PureOps.Ideal
import Idealize.ShloMosaic.Lib.ValueIdx

noncomputable section

open scoped BigOperators

namespace Cert.Agg

open Idealize.ShloMosaic Idealize.ShloMosaic.ValueIdx

/-- The word of a small natural number. -/
abbrev wd (n : Nat) : BitVec 32 := BitVec.ofNat 32 n

/-- The sum over all 1048576 rows of the d-th feature of the rows of class k and stage j. -/
def segSum (f : (⟨2, ![1048576, 64]⟩ : Shape).Idx → EReal) (cls stg : (⟨1, ![1048576]⟩ : Shape).Idx → BitVec 32)
    (k : Fin 1000) (j : Fin 4) (d : Fin 64) : EReal :=
  ∑ n : Fin 1048576, if cls (ix1 n) = wd k.val ∧ stg (ix1 n) = wd j.val then f (ix2 n d) else 0

/-- The number of rows of class k and stage j. -/
def segCnt (cls stg : (⟨1, ![1048576]⟩ : Shape).Idx → BitVec 32) (k : Fin 1000) (j : Fin 4) : EReal :=
  ∑ n : Fin 1048576, if cls (ix1 n) = wd k.val ∧ stg (ix1 n) = wd j.val then 1 else 0

/-- One tile of 4096 rows: the sum of the (col mod 64)-th feature over the tile's rows whose stage word is col / 64 and
    whose class word is kk. -/
def tileSum (x0 : (⟨2, ![4096, 64]⟩ : Shape).Idx → EReal) (x1 x2 : (⟨1, ![4096]⟩ : Shape).Idx → BitVec 32)
    (col : Fin 256) (kk : Fin 1024) : EReal :=
  ∑ r : Fin 4096, if x1 (ix1 r) = wd kk.val ∧ x2 (ix1 r) = wd (col.val / 64)
    then x0 (ix2 r ⟨col.val % 64, Nat.mod_lt _ (by decide)⟩) else 0

/-- One tile's count of the rows of stage j and class kk. -/
def tileCnt (x1 x2 : (⟨1, ![4096]⟩ : Shape).Idx → BitVec 32) (j : Fin 4) (kk : Fin 1024) : EReal :=
  ∑ r : Fin 4096, if x1 (ix1 r) = wd kk.val ∧ x2 (ix1 r) = wd j.val then 1 else 0

/-- Rows 4096 b … 4096 b + 4095 of the feature table: the b-th tile of the 256. -/
def rowBlk (f : (⟨2, ![1048576, 64]⟩ : Shape).Idx → EReal) (b : Fin 256) : (⟨2, ![4096, 64]⟩ : Shape).Idx → EReal :=
  fun y => f (ix2 ⟨4096 * b.val + (y 0).val, by have := idx2_lt0 y; have := b.isLt; omega⟩ (y 1))

/-- Entries 4096 b … 4096 b + 4095 of a word vector over the rows: the b-th tile. -/
def vecBlk (v : (⟨1, ![1048576]⟩ : Shape).Idx → BitVec 32) (b : Fin 256) : (⟨1, ![4096]⟩ : Shape).Idx → BitVec 32 :=
  fun y => v (ix1 ⟨4096 * b.val + (y 0).val, by have : (y 0).val < 4096 := (y 0).isLt; have := b.isLt; omega⟩)

/-- The b-th tile's contribution to the sums, at column col of the 256 (stage, feature) columns and class kk. -/
def tileSumAt (f : (⟨2, ![1048576, 64]⟩ : Shape).Idx → EReal) (cls stg : (⟨1, ![1048576]⟩ : Shape).Idx → BitVec 32)
    (b : Fin 256) (col : Fin 256) (kk : Fin 1024) : EReal :=
  tileSum (rowBlk f b) (vecBlk cls b) (vecBlk stg b) col kk

/-- The b-th tile's contribution to the counts, at stage j and class kk. -/
def tileCntAt (cls stg : (⟨1, ![1048576]⟩ : Shape).Idx → BitVec 32) (b : Fin 256) (j : Fin 4) (kk : Fin 1024) : EReal :=
  tileCnt (vecBlk cls b) (vecBlk stg b) j kk

/-- What one of the two halves of the rows (128 tiles each) accumulates: at (h, col, kk) the sum of the contributions of
    tiles 128 h … 128 h + 127. -/
def halfSum (f : (⟨2, ![1048576, 64]⟩ : Shape).Idx → EReal) (cls stg : (⟨1, ![1048576]⟩ : Shape).Idx → BitVec 32) :
    (⟨3, ![2, 256, 1024]⟩ : Shape).Idx → EReal :=
  fun i => ∑ t : Fin 128, tileSumAt f cls stg ⟨128 * (i 0).val + t.val, by have : (i 0).val < 2 := (i 0).isLt; have := t.isLt; omega⟩ (i 1) (i 2)

/-- The same for the counts. -/
def halfCnt (cls stg : (⟨1, ![1048576]⟩ : Shape).Idx → BitVec 32) : (⟨3, ![2, 4, 1024]⟩ : Shape).Idx → EReal :=
  fun i => ∑ t : Fin 128, tileCntAt cls stg ⟨128 * (i 0).val + t.val, by have : (i 0).val < 2 := (i 0).isLt; have := t.isLt; omega⟩ (i 1) (i 2)

/-- The flat segment word of row n: four times the class word plus the stage word, in 32-bit arithmetic. -/
def segWord (cls stg : (⟨1, ![1048576]⟩ : Shape).Idx → BitVec 32) (n : Fin 1048576) : BitVec 32 :=
  IntOp.addi (IntOp.muli (cls (ix1 n)) 4#32) (stg (ix1 n))

/-- The sum of the d-th feature over the rows whose flat segment word, read signed, is s. -/
def flatSum (f : (⟨2, ![1048576, 64]⟩ : Shape).Idx → EReal) (cls stg : (⟨1, ![1048576]⟩ : Shape).Idx → BitVec 32)
    (s : Fin 4000) (d : Fin 64) : EReal :=
  ∑ n : Fin 1048576, if (segWord cls stg n).toInt = (s.val : Int) then f (ix2 n d) else 0

/-- The number of rows whose flat segment word, read signed, is s. -/
def flatCnt (cls stg : (⟨1, ![1048576]⟩ : Shape).Idx → BitVec 32) (s : Fin 4000) : EReal :=
  ∑ n : Fin 1048576, if (segWord cls stg n).toInt = (s.val : Int) then 1 else 0

/-- The blend of a prototype entry p with the segment mean s / max(c, 1), kept where the count c is positive:
    0.99 p + 0.01 (s / max(c, 1)), the two factors the f32 words both programs carry. -/
def blend (p s c : EReal) : EReal :=
  Scalar.select (FloatOps.cmpf (F := Ideal) (φ := .f32) .ogt c (FloatOps.ofBits (F := Ideal) .f32 0x00000000#32))
    (FloatOps.addf (F := Ideal) (φ := .f32) (FloatOps.mulf (F := Ideal) (φ := .f32) p (FloatOps.ofBits (F := Ideal) .f32 0x3F7D70A4#32))
      (FloatOps.mulf (F := Ideal) (φ := .f32) (FloatOps.ofBits (F := Ideal) .f32 0x3C23D70A#32)
        (FloatOps.hostDivf (F := Ideal) (φ := .f32) s (FloatOps.maximumf (F := Ideal) (φ := .f32) c (FloatOps.ofBits (F := Ideal) .f32 0x3F800000#32)))))
    p

/-- The first result: every prototype entry blended with its segment's mean. -/
def newProtos (f : (⟨2, ![1048576, 64]⟩ : Shape).Idx → EReal) (cls stg : (⟨1, ![1048576]⟩ : Shape).Idx → BitVec 32)
    (p : (⟨3, ![1000, 4, 64]⟩ : Shape).Idx → EReal) : (⟨3, ![1000, 4, 64]⟩ : Shape).Idx → EReal :=
  fun i => blend (p i) (segSum f cls stg (i 0) (i 1) (i 2)) (segCnt cls stg (i 0) (i 1))

/-- The second result: every count increased by its segment's count. -/
def newCounts (cls stg : (⟨1, ![1048576]⟩ : Shape).Idx → BitVec 32)
    (q : (⟨2, ![1000, 4]⟩ : Shape).Idx → EReal) : (⟨2, ![1000, 4]⟩ : Shape).Idx → EReal :=
  fun i => q i + segCnt cls stg (i 0) (i 1)

end Cert.Agg

end
-- ==== Proof.RefVal.lean ====
/-
  The reference program's two results, read at an index over the extended reals: the scatter-adds as sums over the rows
  whose flat segment word names the entry, the rest of the program entry by entry.
-/
import proofs.«413451_j1700807049518_3_alg».proof.Proof.RefRead
import proofs.«413451_j1700807049518_3_alg».proof.Proof.Spec
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

open scoped BigOperators

namespace Cert.ReferenceIdeal.RefVal

open Idealize.ShloMosaic Idealize.ShloMosaic.ValueIdx Cert.ReferenceIdeal Cert.ReferenceIdeal.Gen Cert.ReferenceIdeal.ReadP Cert.Agg

/-- The host's accumulating scatter read at an entry: the operand's entry plus the sum of the updates that land there. -/
private theorem hostScatterAdd_apply {s si su : Shape} (d : ScatterDims s si su) {w : Nat} (x : s.Idx → EReal)
    (idx : IVec si w) (upd : su.Idx → EReal) (i : s.Idx) :
    Ideal.hostScatterAdd d x idx upd i = x i + ∑ j, if d.resultIdx? j idx = some i then upd j else 0 := by
  unfold Ideal.hostScatterAdd
  rw [Finset.sum_filter]

/-- The count scatter's record. -/
private abbrev dC := scatter_S4000_S1048576x1_S1048576_n_0_0_1

private theorem dC_siIdx (n : Fin 1048576) (c : Fin dC.scatterDimsToOperandDims.length) :
    dC.siIdx (ix1 n) c = ix2 n ⟨0, Nat.one_pos⟩ := by
  funext b
  match b with
  | ⟨0, _⟩ => rfl
  | ⟨1, _⟩ =>
    have hc : c.val < 1 := c.isLt
    exact Fin.ext (by show c.val = 0; omega)

private theorem dC_start (n : Fin 1048576) (idx : IVec S1048576x1 32) (a : Fin 1) :
    dC.start (ix1 n) idx a = (idx (ix2 n ⟨0, Nat.one_pos⟩)).toInt := by
  have ha : a = ⟨0, Nat.one_pos⟩ := Fin.ext (by have := a.isLt; omega)
  subst ha
  unfold ScatterDims.start
  rw [dif_pos (by decide)]
  rw [dC_siIdx]

private theorem dC_window (j : S1048576.Idx) (a : Fin 1) : dC.window j a = 0 := by
  have ha : a = ⟨0, Nat.one_pos⟩ := Fin.ext (by have := a.isLt; omega)
  subst ha
  unfold ScatterDims.window
  rw [dif_neg (by decide)]

/-- Row n of the ones lands at entry s exactly when its index word, read signed, is s. -/
private theorem dC_resultIdx (n : Fin 1048576) (idx : IVec S1048576x1 32) (s : Fin 4000) :
    dC.resultIdx? (ix1 n) idx = some (ix1 s) ↔ (idx (ix2 n ⟨0, Nat.one_pos⟩)).toInt = (s.val : Int) := by
  have hs : s.val < 4000 := s.isLt
  unfold ScatterDims.resultIdx?
  split_ifs with h
  · rw [Option.some.injEq]
    constructor
    · intro e
      have e0 := congrArg Fin.val (congrFun e ⟨0, Nat.one_pos⟩)
      have h0 := (h ⟨0, Nat.one_pos⟩).1
      change (dC.start (ix1 n) idx ⟨0, Nat.one_pos⟩ + (dC.window (ix1 n) ⟨0, Nat.one_pos⟩ : Int)).toNat = s.val at e0
      rw [dC_start, dC_window] at e0 h0
      omega
    · intro e
      funext a
      have ha : a = ⟨0, Nat.one_pos⟩ := Fin.ext (by have : a.val < 1 := a.isLt; show a.val = 0; omega)
      subst ha
      apply Fin.ext
      change (dC.start (ix1 n) idx ⟨0, Nat.one_pos⟩ + (dC.window (ix1 n) ⟨0, Nat.one_pos⟩ : Int)).toNat = s.val
      rw [dC_start, dC_window]
      omega
  · constructor
    · intro e; cases e
    · intro e
      exfalso
      apply h
      intro a
      have ha : a = ⟨0, Nat.one_pos⟩ := Fin.ext (by have : a.val < 1 := a.isLt; show a.val = 0; omega)
      subst ha
      rw [dC_start, dC_window]
      change 0 ≤ _ + ((0 : Nat) : Int) ∧ _ + ((0 : Nat) : Int) < ((4000 : Nat) : Int)
      omega

/-- A one-axis index set is its coordinate range … -/
private def idxEquiv1 {n : Nat} : (⟨1, ![n]⟩ : Shape).Idx ≃ Fin n where
  toFun i := i ⟨0, Nat.one_pos⟩
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The count scatter's index word of row n is the flat segment word. -/
private theorem word8_apply (x1 x2 : (⟨S1048576, .i32⟩ : BufTy).Contents (Elt Ideal)) (n : Fin 1048576) :
    val_main_v8 (F := Ideal) x1 x2 (ix2 n ⟨0, Nat.one_pos⟩) = segWord x1 x2 n := by
  rw [val_main_v8_apply, val_main_v2_apply, val_main_v1_apply, val_main_v0_apply, val_main_c_apply]
  have hi : idx_main_v8 (ix2 n (⟨0, Nat.one_pos⟩ : Fin 1)) = ix1 n := by
    funext a; match a with | ⟨0, _⟩ => rfl
  rw [hi]
  rfl

/-- The count scatter at entry s: the number of rows whose flat segment word is s. -/
private theorem v9_apply (x1 x2 : (⟨S1048576, .i32⟩ : BufTy).Contents (Elt Ideal)) (s : Fin 4000) :
    val_main_v9 (F := Ideal) x1 x2 (ix1 s) = flatCnt x1 x2 s := by
  have h : val_main_v9 (F := Ideal) x1 x2
      = Ideal.hostScatterAdd dC (val_main_v7 (F := Ideal)) (val_main_v8 (F := Ideal) x1 x2) (val_main_v6 (F := Ideal)) := rfl
  rw [h, hostScatterAdd_apply, val_main_v7_apply, val_main_cst_1_apply, Ideal.ofBits_def, Ideal.ofBits_zero_f32, zero_add,
    sum_idx1]
  unfold flatCnt
  refine Finset.sum_congr rfl fun n _ => ?_
  rw [val_main_v6_apply, val_main_cst_0_apply, Ideal.ofBits_def, Ideal.ofBits_one_f32]
  refine if_congr ?_ rfl rfl
  rw [dC_resultIdx, word8_apply]

/-- The feature scatter's record. -/
private abbrev dS := scatter_S4000x64_S1048576x1_S1048576x64_1_0_0_1

private theorem dS_siIdx (n : Fin 1048576) (dd : Fin 64) (c : Fin dS.scatterDimsToOperandDims.length) :
    dS.siIdx (ix2 n dd) c = ix2 n ⟨0, Nat.one_pos⟩ := by
  funext b
  match b with
  | ⟨0, _⟩ => rfl
  | ⟨1, _⟩ =>
    have hc : c.val < 1 := c.isLt
    exact Fin.ext (by show c.val = 0; omega)

private theorem dS_start0 (n : Fin 1048576) (dd : Fin 64) (idx : IVec S1048576x1 32) :
    dS.start (ix2 n dd) idx ⟨0, by decide⟩ = (idx (ix2 n ⟨0, Nat.one_pos⟩)).toInt := by
  unfold ScatterDims.start
  rw [dif_pos (by decide), dS_siIdx]

private theorem dS_start1 (j : S1048576x64.Idx) (idx : IVec S1048576x1 32) : dS.start j idx ⟨1, by decide⟩ = 0 := by
  unfold ScatterDims.start
  rw [dif_neg (by decide)]

private theorem dS_window0 (j : S1048576x64.Idx) : dS.window j ⟨0, by decide⟩ = 0 := by
  unfold ScatterDims.window
  rw [dif_neg (by decide)]

private theorem dS_window1 (n : Fin 1048576) (dd : Fin 64) : dS.window (ix2 n dd) ⟨1, by decide⟩ = dd.val := by
  unfold ScatterDims.window
  rw [dif_pos (by decide)]
  rfl

/-- The feature (n, dd) lands at entry (s, d) exactly when row n's index word, read signed, is s and dd is d. -/
private theorem dS_resultIdx (n : Fin 1048576) (dd : Fin 64) (idx : IVec S1048576x1 32) (s : Fin 4000) (d : Fin 64) :
    dS.resultIdx? (ix2 n dd) idx = some (ix2 s d)
      ↔ ((idx (ix2 n ⟨0, Nat.one_pos⟩)).toInt = (s.val : Int) ∧ dd = d) := by
  have hs : s.val < 4000 := s.isLt
  have hd : d.val < 64 := d.isLt
  have hdd : dd.val < 64 := dd.isLt
  have p0 : 0 < S4000x64.rank := by decide
  have p1 : 1 < S4000x64.rank := by decide
  unfold ScatterDims.resultIdx?
  split_ifs with h
  · rw [Option.some.injEq]
    constructor
    · intro e
      have e0 := congrArg Fin.val (congrFun e ⟨0, p0⟩)
      have e1 := congrArg Fin.val (congrFun e ⟨1, p1⟩)
      have h0 := (h ⟨0, p0⟩).1
      change (dS.start (ix2 n dd) idx ⟨0, p0⟩ + (dS.window (ix2 n dd) ⟨0, p0⟩ : Int)).toNat = s.val at e0
      change (dS.start (ix2 n dd) idx ⟨1, p1⟩ + (dS.window (ix2 n dd) ⟨1, p1⟩ : Int)).toNat = d.val at e1
      rw [dS_start0, dS_window0] at e0 h0
      rw [dS_start1, dS_window1] at e1
      exact ⟨by omega, Fin.ext (by omega)⟩
    · rintro ⟨e, rfl⟩
      funext a
      match a with
      | ⟨0, _⟩ =>
        apply Fin.ext
        change (dS.start (ix2 n dd) idx ⟨0, p0⟩ + (dS.window (ix2 n dd) ⟨0, p0⟩ : Int)).toNat = s.val
        rw [dS_start0, dS_window0]
        omega
      | ⟨1, _⟩ =>
        apply Fin.ext
        change (dS.start (ix2 n dd) idx ⟨1, p1⟩ + (dS.window (ix2 n dd) ⟨1, p1⟩ : Int)).toNat = dd.val
        rw [dS_start1, dS_window1]
        omega
  · constructor
    · intro e; cases e
    · rintro ⟨e, rfl⟩
      exfalso
      apply h
      intro a
      match a with
      | ⟨0, _⟩ =>
        rw [dS_start0, dS_window0]
        change 0 ≤ _ + ((0 : Nat) : Int) ∧ _ + ((0 : Nat) : Int) < ((4000 : Nat) : Int)
        omega
      | ⟨1, _⟩ =>
        rw [dS_start1, dS_window1]
        change 0 ≤ (0 : Int) + ((dd.val : Nat) : Int) ∧ (0 : Int) + ((dd.val : Nat) : Int) < ((64 : Nat) : Int)
        omega

/-- The feature scatter's index word of row n is the flat segment word. -/
private theorem word4_apply (x1 x2 : (⟨S1048576, .i32⟩ : BufTy).Contents (Elt Ideal)) (n : Fin 1048576) :
    val_main_v4 (F := Ideal) x1 x2 (ix2 n ⟨0, Nat.one_pos⟩) = segWord x1 x2 n := by
  rw [val_main_v4_apply, val_main_v2_apply, val_main_v1_apply, val_main_v0_apply, val_main_c_apply]
  have hi : idx_main_v4 (ix2 n (⟨0, Nat.one_pos⟩ : Fin 1)) = ix1 n := by
    funext a; match a with | ⟨0, _⟩ => rfl
  rw [hi]
  rfl

/-- The feature scatter at entry (s, d): the sum of the d-th feature over the rows whose flat segment word is s. -/
private theorem v5_apply (x0 : (⟨S1048576x64, .f32⟩ : BufTy).Contents (Elt Ideal))
    (x1 x2 : (⟨S1048576, .i32⟩ : BufTy).Contents (Elt Ideal)) (s : Fin 4000) (d : Fin 64) :
    val_main_v5 (F := Ideal) x0 x1 x2 (ix2 s d) = flatSum x0 x1 x2 s d := by
  have h : val_main_v5 (F := Ideal) x0 x1 x2
      = Ideal.hostScatterAdd dS (val_main_v3 (F := Ideal)) (val_main_v4 (F := Ideal) x1 x2) x0 := rfl
  rw [h, hostScatterAdd_apply, val_main_v3_apply, val_main_cst_apply, Ideal.ofBits_def, Ideal.ofBits_zero_f32, zero_add,
    sum_idx2]
  unfold flatSum
  refine Finset.sum_congr rfl fun n _ => ?_
  simp only [dS_resultIdx, word4_apply]
  by_cases hA : (segWord x1 x2 n).toInt = (s.val : Int)
  · simp only [hA, true_and, if_true]
    rw [Finset.sum_ite_eq' Finset.univ d]
    simp only [Finset.mem_univ, if_true]
  · simp only [hA, false_and, if_false]
    exact Finset.sum_const_zero

/-- The blended array before the last reshape, at (s, d): the prototype entry the reshape reads there, blended with
    the mean of the rows whose flat segment word is s. -/
private theorem v24_at (x0 : (⟨S1048576x64, .f32⟩ : BufTy).Contents (Elt Ideal))
    (x1 x2 : (⟨S1048576, .i32⟩ : BufTy).Contents (Elt Ideal)) (x3 : (⟨S1000x4x64, .f32⟩ : BufTy).Contents (Elt Ideal))
    (s : Fin 4000) (d : Fin 64) :
    val_main_v24 (F := Ideal) x0 x1 x2 x3 (ix2 s d)
      = blend (x3 (idx_main_v15 (ix2 s d))) (flatSum x0 x1 x2 s d) (flatCnt x1 x2 s) := by
  have h1 : idx_main_v23 (idx_main_call0_v0 (ix2 s d)) = ix1 s := by
    funext a; match a with | ⟨0, _⟩ => rfl
  have h2 : idx_main_v12 (idx_main_v13 (ix2 s d)) = ix1 s := by
    funext a; match a with | ⟨0, _⟩ => rfl
  rw [val_main_v24_apply, val_main_call0_v0_apply, val_main_v23_apply, val_main_v22_apply, val_main_v21_apply,
    val_main_cst_5_apply, val_main_v20_apply, val_main_v17_apply, val_main_v15_apply, val_main_v16_apply,
    val_main_cst_3_apply, val_main_v19_apply, val_main_v18_apply, val_main_cst_4_apply, val_main_v14_apply,
    val_main_v13_apply, val_main_v12_apply, val_main_v11_apply, val_main_v10_apply, val_main_cst_2_apply,
    h1, h2, v9_apply, v5_apply]
  rfl

/-- The first result at (k, j, d): the prototype entry blended with the mean of the rows whose flat segment word is 4 k + j. -/
theorem v25_apply (x0 : (⟨S1048576x64, .f32⟩ : BufTy).Contents (Elt Ideal)) (x1 x2 : (⟨S1048576, .i32⟩ : BufTy).Contents (Elt Ideal))
    (x3 : (⟨S1000x4x64, .f32⟩ : BufTy).Contents (Elt Ideal)) (k : Fin 1000) (j : Fin 4) (d : Fin 64) :
    val_main_v25 (F := Ideal) x0 x1 x2 x3 (ix3 k j d)
      = blend (x3 (ix3 k j d)) (flatSum x0 x1 x2 ⟨4 * k.val + j.val, by have := k.isLt; have := j.isLt; omega⟩ d)
          (flatCnt x1 x2 ⟨4 * k.val + j.val, by have := k.isLt; have := j.isLt; omega⟩) := by
  have hk : k.val < 1000 := k.isLt
  have hj : j.val < 4 := j.isLt
  have hd : d.val < 64 := d.isLt
  have hs : 4 * k.val + j.val < 4000 := by omega
  have hi25 : idx_main_v25 (ix3 k j d) = ix2 (⟨4 * k.val + j.val, hs⟩ : Fin 4000) d := by
    funext a
    match a with
    | ⟨0, _⟩ => exact Fin.ext (by show ((k.val * 4 + j.val) * 64 + d.val) / 64 = 4 * k.val + j.val; omega)
    | ⟨1, _⟩ => exact Fin.ext (by show ((k.val * 4 + j.val) * 64 + d.val) % 64 = d.val; omega)
  have hi15 : idx_main_v15 (ix2 (⟨4 * k.val + j.val, hs⟩ : Fin 4000) d) = ix3 k j d := by
    funext a
    match a with
    | ⟨0, _⟩ => exact Fin.ext (by show ((4 * k.val + j.val) * 64 + d.val) / 256 = k.val; omega)
    | ⟨1, _⟩ => exact Fin.ext (by show ((4 * k.val + j.val) * 64 + d.val) / 64 % 4 = j.val; omega)
    | ⟨2, _⟩ => exact Fin.ext (by show ((4 * k.val + j.val) * 64 + d.val) % 64 = d.val; omega)
  rw [val_main_v25_apply, hi25, v24_at, hi15]

/-- The second result at (k, j): the count increased by the number of rows whose flat segment word is 4 k + j. -/
theorem v27_apply (x1 x2 : (⟨S1048576, .i32⟩ : BufTy).Contents (Elt Ideal)) (x4 : (⟨S1000x4, .f32⟩ : BufTy).Contents (Elt Ideal))
    (k : Fin 1000) (j : Fin 4) :
    val_main_v27 (F := Ideal) x1 x2 x4 (ix2 k j)
      = x4 (ix2 k j) + flatCnt x1 x2 ⟨4 * k.val + j.val, by have := k.isLt; have := j.isLt; omega⟩ := by
  have hk : k.val < 1000 := k.isLt
  have hj : j.val < 4 := j.isLt
  have hs : 4 * k.val + j.val < 4000 := by omega
  have hi26 : idx_main_v26 (ix2 k j) = ix1 (⟨4 * k.val + j.val, hs⟩ : Fin 4000) := by
    funext a
    match a with
    | ⟨0, _⟩ => exact Fin.ext (by show k.val * 4 + j.val = 4 * k.val + j.val; omega)
  rw [val_main_v27_apply, val_main_v26_apply, hi26, v9_apply]
  rfl

end Cert.ReferenceIdeal.RefVal

end
-- ==== Proof.AccMath.lean ====
/-
  The accumulators' running values along the grid. The 256 grid points are visited in order; the accumulators are reset
  at points 0 and 128 (the first point of each half) and otherwise carried, each point adding its tile's contribution.
  So after the last point of a half they hold the sum of that half's 128 contributions.
-/
import proofs.«413451_j1700807049518_3_alg».proof.Proof.Spec
import Idealize.ShloMosaic.Lib.ValueIdx
import Mathlib.Algebra.BigOperators.Fin
import Mathlib.Algebra.BigOperators.Intervals

set_option maxRecDepth 16384

noncomputable section

open scoped BigOperators

namespace Cert.Agg

open Idealize.ShloMosaic Idealize.ShloMosaic.ValueIdx

variable (f : (⟨2, ![1048576, 64]⟩ : Shape).Idx → EReal) (cls stg : (⟨1, ![1048576]⟩ : Shape).Idx → BitVec 32)

/-- Tile n's contribution to the sums at (col, kk); nothing past the 256 tiles. -/
def tsa (col : Fin 256) (kk : Fin 1024) (n : ℕ) : EReal :=
  if h : n < 256 then tileSumAt f cls stg ⟨n, h⟩ col kk else 0

/-- Tile n's contribution to the counts at (j, kk); nothing past the 256 tiles. -/
def tca (j : Fin 4) (kk : Fin 1024) (n : ℕ) : EReal :=
  if h : n < 256 then tileCntAt cls stg ⟨n, h⟩ j kk else 0

/-- The sums' accumulator at (col, kk) after grid point n: reset at the multiples of 128, carried otherwise. -/
def accSum (col : Fin 256) (kk : Fin 1024) : ℕ → EReal
  | 0 => tsa f cls stg col kk 0
  | n + 1 => if (n + 1) % 128 = 0 then tsa f cls stg col kk (n + 1) else accSum col kk n + tsa f cls stg col kk (n + 1)

/-- The counts' accumulator at (j, kk) after grid point n. -/
def accCnt (j : Fin 4) (kk : Fin 1024) : ℕ → EReal
  | 0 => tca cls stg j kk 0
  | n + 1 => if (n + 1) % 128 = 0 then tca cls stg j kk (n + 1) else accCnt j kk n + tca cls stg j kk (n + 1)

/-- An accumulator a that starts at c 0, is reset to c (n + 1) when n + 1 is a multiple of 128 and otherwise adds
    c (n + 1), holds at the point 128 h + j (j below 128) the sum of c over the points 128 h … 128 h + j. -/
private theorem acc_run (a c : ℕ → EReal) (h0 : a 0 = c 0)
    (hs : ∀ n, a (n + 1) = if (n + 1) % 128 = 0 then c (n + 1) else a n + c (n + 1))
    (h : ℕ) (j : ℕ) (hj : j < 128) :
    a (128 * h + j) = ∑ t ∈ Finset.range (j + 1), c (128 * h + t) := by
  induction j with
  | zero =>
    rw [Finset.sum_range_one, Nat.add_zero]
    cases h with
    | zero => rw [Nat.mul_zero]; exact h0
    | succ m =>
      have e : 128 * (m + 1) = (128 * m + 127) + 1 := by omega
      rw [e, hs, if_pos (by omega)]
  | succ i ih =>
    have e : 128 * h + (i + 1) = (128 * h + i) + 1 := by omega
    rw [Finset.sum_range_succ, ← ih (by omega), e, hs, if_neg (by omega)]

/-- After the last point of half h the sums' accumulator holds the half's sum. -/
theorem accSum_last (h : Fin 2) (col : Fin 256) (kk : Fin 1024) :
    accSum f cls stg col kk (128 * h.val + 127) = halfSum f cls stg (ix3 h col kk) := by
  have hh := h.isLt
  have key : accSum f cls stg col kk (128 * h.val + 127)
      = ∑ t ∈ Finset.range 128, tsa f cls stg col kk (128 * h.val + t) :=
    acc_run (accSum f cls stg col kk) (tsa f cls stg col kk) rfl (fun n => rfl) h.val 127 (by omega)
  rw [key, Finset.sum_range]
  unfold halfSum
  apply Finset.sum_congr rfl
  intro t _
  have ht := t.isLt
  unfold tsa
  rw [dif_pos (by omega)]

/-- After the last point of half h the counts' accumulator holds the half's count. -/
theorem accCnt_last (h : Fin 2) (j : Fin 4) (kk : Fin 1024) :
    accCnt cls stg j kk (128 * h.val + 127) = halfCnt cls stg (ix3 h j kk) := by
  have hh := h.isLt
  have key : accCnt cls stg j kk (128 * h.val + 127)
      = ∑ t ∈ Finset.range 128, tca cls stg j kk (128 * h.val + t) :=
    acc_run (accCnt cls stg j kk) (tca cls stg j kk) rfl (fun n => rfl) h.val 127 (by omega)
  rw [key, Finset.sum_range]
  unfold halfCnt
  apply Finset.sum_congr rfl
  intro t _
  have ht := t.isLt
  unfold tca
  rw [dif_pos (by omega)]

end Cert.Agg

end
-- ==== Proof.TileMath.lean ====
/-
  One tile's arithmetic, read at an index over the extended reals.
-/
import proofs.«413451_j1700807049518_3_alg».proof.Proof.Gen.KernelIdeal.Skeleton
import proofs.«413451_j1700807049518_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.TileMath

open Idealize.ShloMosaic Idealize.ShloMosaic.ValueIdx Cert.KernelIdeal Cert.KernelIdeal.Gen Cert.Agg

/-- The loop over the class chunks has four trips. -/
theorem trips_lt (k : Fin k0_t1_loop.trips) : k.val < 4 := by
  exact Nat.lt_of_lt_of_le k.isLt k0_t1_abs.2.1

/-- The bf16 zero word denotes zero. -/
private theorem zero_bf16 : Ideal.ofBits .bf16 0x0000#16 = 0 := by simp [Ideal.ofBits, Ideal.ieee]

/-- The conversion of a widened comparison bit is one where the words agree and zero elsewhere. -/
private theorem onehot (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · subst h
    simp [IntOp.cmpi]
  · have : (x == y) = false := by simpa using h
    simp [IntOp.cmpi, this, h]

/-- A select on a comparison bit is the choice on the equation. -/
private theorem select_cmpi {α : Type} (x y : BitVec 32) (a b : α) :
    Scalar.select (IntOp.cmpi .eq x y) a b = if x = y then a else b := by
  by_cases h : x = y
  · subst h
    simp [IntOp.cmpi, Scalar.select]
  · have : (x == y) = false := by simpa using h
    simp [IntOp.cmpi, Scalar.select, this, h]

/-- The word of a column number below 256 shifted right by six places is the word of its quotient by 64. -/
private theorem shr6 (c : Nat) (hc : c < 256) :
    IntOp.shrsi .vector (BitVec.ofNat 32 c) 6#32 = BitVec.ofNat 32 (c / 64) := by
  unfold IntOp.shrsi
  rw [if_pos (by decide)]
  apply BitVec.eq_of_toNat_eq
  have hm : (BitVec.ofNat 32 c).msb = false := by
    rw [BitVec.msb_eq_decide]; simp; omega
  rw [BitVec.toNat_sshiftRight'_of_msb_false hm]
  simp [Nat.shiftRight_eq_div_pow]
  omega

/-- The class word less 256 k is the word of cc exactly when the class word is the word of 256 k + cc. -/
private theorem chunk_word (x : BitVec 32) (n c : Nat) (hn : n < 4) :
    (IntOp.subi x (Scalar.muli (Scf.iv 0#32 1#32 n) 256#32) = BitVec.ofNat 32 c) ↔ x = wd (256 * n + c) := by
  have h1 : Scalar.muli (Scf.iv 0#32 1#32 n) 256#32 = BitVec.ofNat 32 (256 * n) := by
    have h4 : n = 0 ∨ n = 1 ∨ n = 2 ∨ n = 3 := by omega
    rcases h4 with rfl | rfl | rfl | rfl <;> decide
  rw [h1]
  show x - BitVec.ofNat 32 (256 * n) = BitVec.ofNat 32 c ↔ x = BitVec.ofNat 32 (256 * n + c)
  rw [BitVec.ofNat_add, BitVec.sub_eq_iff_eq_add, BitVec.add_comm]

/-- A vector of 4096 words viewed as a column reads the word of its row. -/
private theorem col_apply (v : Vec Ideal S4096 .i32) (r : Fin 4096) (z : Fin 1) :
    k0_pay4 (F := Ideal) v (ix2 r z) = v (ix1 r) := by
  unfold k0_pay4
  refine shapeCast_apply v _ (ix2 r z) (ix1 r) ?_
  rw [Shape.rowMajor_val_one, Shape.rowMajor_val_two]
  show r.val = r.val * 1 + z.val
  have := z.isLt; omega

/-- The class one-hot of chunk k at row r and local column cc. -/
private theorem pay5_apply (x1 : Vec Ideal S4096 .i32) (k : Fin k0_t1_loop.trips) (r : Fin 4096) (cc : Fin 256) :
    k0_pay5 (F := Ideal) x1 k (ix2 r cc) = if x1 (ix1 r) = wd (256 * k.val + cc.val) then 1 else 0 := by
  have h39 : broadcastTo S4096x256 (subi (k0_pay4 (F := Ideal) x1) (broadcast S4096x1 (Scalar.muli (Scf.iv 0#32 1#32 k) 256#32))) broadcasts_S4096x1_S4096x256 (ix2 r cc)
       = IntOp.subi (x1 (ix1 r)) (Scalar.muli (Scf.iv 0#32 1#32 k) 256#32) := by
    refine (broadcastTo_apply (s := S4096x1) (t := S4096x256) _ _ (ix2 r cc) (ix2 r 0) (fun a => match a with | ⟨0, _⟩ => rfl | ⟨1, _⟩ => rfl)).trans ?_
    show IntOp.subi (k0_pay4 (F := Ideal) x1 (ix2 r 0)) _ = _
    rw [col_apply]
    rfl
  have h40 : broadcastTo S4096x256 (iota .tc S1x256 32 [1] iota_S1x256_d1_w32) broadcasts_S1x256_S4096x256 (ix2 r cc) = BitVec.ofNat 32 cc.val := by
    refine (broadcastTo_apply (s := S1x256) (t := S4096x256) _ _ (ix2 r cc) (ix2 0 cc) (fun a => match a with | ⟨0, _⟩ => rfl | ⟨1, _⟩ => rfl)).trans ?_
    exact iota_single_apply .tc S1x256 32 1 _ (ix2 0 cc)
  show FloatOps.sitofp (F := Ideal) .f32 ((IntOp.cmpi .eq
      (broadcastTo S4096x256 (subi (k0_pay4 (F := Ideal) x1) (broadcast S4096x1 (Scalar.muli (Scf.iv 0#32 1#32 k) 256#32))) broadcasts_S4096x1_S4096x256 (ix2 r cc))
      (broadcastTo S4096x256 (iota .tc S1x256 32 [1] iota_S1x256_d1_w32) broadcasts_S1x256_S4096x256 (ix2 r cc))).setWidth 32) = _
  rw [h39, h40, onehot]
  exact if_congr (chunk_word _ _ _ (trips_lt k)) rfl rfl

/-- The left operand of the sums' product: the tile's features, four copies side by side, kept where the row's stage
    word is the column's quotient by 64. -/
private def stageFeat (x0 : Vec Ideal S4096x64 .f32) (x2 : Vec Ideal S4096 .i32) : FVec Ideal S4096x256 .bf16 :=
  select (cmpi .eq (broadcastTo S4096x256 (shrsi (iota .tc S1x256 32 [1] iota_S1x256_d1_w32) (broadcast S1x256 6#32)) broadcasts_S1x256_S4096x256)
      (broadcastTo S4096x256 (k0_pay4 (F := Ideal) x2) broadcasts_S4096x1_S4096x256))
    (concatenate S4096x256 1 [⟨S4096x64, truncf .bf16 x0 bitsLt_bf16_f32⟩, ⟨S4096x64, truncf .bf16 x0 bitsLt_bf16_f32⟩, ⟨S4096x64, truncf .bf16 x0 bitsLt_bf16_f32⟩, ⟨S4096x64, truncf .bf16 x0 bitsLt_bf16_f32⟩] concatenates_S4096x64_S4096x64_S4096x64_S4096x64_S4096x256_d1)
    (broadcast S4096x256 (Scalar.ofBits (F := Ideal) .bf16 0x0000#16))

private theorem stageFeat_apply (x0 : Vec Ideal S4096x64 .f32) (x2 : Vec Ideal S4096 .i32) (r : Fin 4096) (col : Fin 256) :
    stageFeat x0 x2 (ix2 r col)
      = if x2 (ix1 r) = wd (col.val / 64) then x0 (ix2 r ⟨col.val % 64, Nat.mod_lt _ (by decide)⟩) else 0 := by
  have h13 : broadcastTo S4096x256 (shrsi (iota .tc S1x256 32 [1] iota_S1x256_d1_w32) (broadcast S1x256 6#32)) broadcasts_S1x256_S4096x256 (ix2 r col)
      = wd (col.val / 64) := by
    refine (broadcastTo_apply (s := S1x256) (t := S4096x256) _ _ (ix2 r col) (ix2 0 col) (fun a => match a with | ⟨0, _⟩ => rfl | ⟨1, _⟩ => rfl)).trans ?_
    show IntOp.shrsi .vector (iota .tc S1x256 32 [1] iota_S1x256_d1_w32 (ix2 0 col)) 6#32 = _
    rw [iota_single_apply]
    exact shr6 col.val col.isLt
  have h14 : broadcastTo S4096x256 (k0_pay4 (F := Ideal) x2) broadcasts_S4096x1_S4096x256 (ix2 r col) = x2 (ix1 r) := by
    refine (broadcastTo_apply (s := S4096x1) (t := S4096x256) _ _ (ix2 r col) (ix2 r 0) (fun a => match a with | ⟨0, _⟩ => rfl | ⟨1, _⟩ => rfl)).trans ?_
    exact col_apply x2 r 0
  have h9 : concatenate S4096x256 1 [⟨S4096x64, truncf (F := Ideal) .bf16 x0 bitsLt_bf16_f32⟩, ⟨S4096x64, truncf (F := Ideal) .bf16 x0 bitsLt_bf16_f32⟩, ⟨S4096x64, truncf (F := Ideal) .bf16 x0 bitsLt_bf16_f32⟩, ⟨S4096x64, truncf (F := Ideal) .bf16 x0 bitsLt_bf16_f32⟩] concatenates_S4096x64_S4096x64_S4096x64_S4096x64_S4096x256_d1 (ix2 r col)
      = x0 (ix2 r ⟨col.val % 64, Nat.mod_lt _ (by decide)⟩) := by
    refine (concatenate_replicate_apply (t := S4096x256) (s₁ := S4096x64) 1 4 (truncf (F := Ideal) .bf16 x0 bitsLt_bf16_f32)
      concatenates_S4096x64_S4096x64_S4096x64_S4096x64_S4096x256_d1 rfl (ix2 r col) (ix2 r ⟨col.val % 64, Nat.mod_lt _ (by decide)⟩) rfl
      (fun b hb => match b with | ⟨0, _⟩ => rfl | ⟨1, _⟩ => absurd rfl hb)).trans ?_
    rfl
  show Scalar.select (IntOp.cmpi .eq
      (broadcastTo S4096x256 (shrsi (iota .tc S1x256 32 [1] iota_S1x256_d1_w32) (broadcast S1x256 6#32)) broadcasts_S1x256_S4096x256 (ix2 r col))
      (broadcastTo S4096x256 (k0_pay4 (F := Ideal) x2) broadcasts_S4096x1_S4096x256 (ix2 r col)))
    (concatenate S4096x256 1 [⟨S4096x64, truncf (F := Ideal) .bf16 x0 bitsLt_bf16_f32⟩, ⟨S4096x64, truncf (F := Ideal) .bf16 x0 bitsLt_bf16_f32⟩, ⟨S4096x64, truncf (F := Ideal) .bf16 x0 bitsLt_bf16_f32⟩, ⟨S4096x64, truncf (F := Ideal) .bf16 x0 bitsLt_bf16_f32⟩] concatenates_S4096x64_S4096x64_S4096x64_S4096x64_S4096x256_d1 (ix2 r col))
    (Ideal.ofBits .bf16 0x0000#16) = _
  rw [h13, h14, h9, select_cmpi, zero_bf16]
  exact if_congr eq_comm rfl rfl

/-- The left operand of the counts' product: one where the row's stage word is j. -/
private def stageHot (x2 : Vec Ideal S4096 .i32) : FVec Ideal S4096x4 .bf16 :=
  truncf .bf16 (sitofp .f32 (extui 32 (cmpi .eq (broadcastTo S4096x4 (iota .tc S1x4 32 [1] iota_S1x4_d1_w32) broadcasts_S1x4_S4096x4)
    (broadcastTo S4096x4 (k0_pay4 (F := Ideal) x2) broadcasts_S4096x1_S4096x4)) natLt_1_32)) bitsLt_bf16_f32

private theorem stageHot_apply (x2 : Vec Ideal S4096 .i32) (r : Fin 4096) (j : Fin 4) :
    stageHot x2 (ix2 r j) = if x2 (ix1 r) = wd j.val then 1 else 0 := by
  have h19 : broadcastTo S4096x4 (iota .tc S1x4 32 [1] iota_S1x4_d1_w32) broadcasts_S1x4_S4096x4 (ix2 r j) = wd j.val := by
    refine (broadcastTo_apply (s := S1x4) (t := S4096x4) _ _ (ix2 r j) (ix2 0 j) (fun a => match a with | ⟨0, _⟩ => rfl | ⟨1, _⟩ => rfl)).trans ?_
    exact iota_single_apply .tc S1x4 32 1 _ (ix2 0 j)
  have h20 : broadcastTo S4096x4 (k0_pay4 (F := Ideal) x2) broadcasts_S4096x1_S4096x4 (ix2 r j) = x2 (ix1 r) := by
    refine (broadcastTo_apply (s := S4096x1) (t := S4096x4) _ _ (ix2 r j) (ix2 r 0) (fun a => match a with | ⟨0, _⟩ => rfl | ⟨1, _⟩ => rfl)).trans ?_
    exact col_apply x2 r 0
  show FloatOps.sitofp (F := Ideal) .f32 ((IntOp.cmpi .eq
      (broadcastTo S4096x4 (iota .tc S1x4 32 [1] iota_S1x4_d1_w32) broadcasts_S1x4_S4096x4 (ix2 r j))
      (broadcastTo S4096x4 (k0_pay4 (F := Ideal) x2) broadcasts_S4096x1_S4096x4 (ix2 r j))).setWidth 32) = _
  rw [h19, h20, onehot]
  exact if_congr eq_comm rfl rfl

/-- The sums' product into a zero accumulator, read at an index: the sum over the 4096 rows. -/
private theorem dot1_apply (A B : FVec Ideal S4096x256 .bf16) (a b : Fin 256) :
    matmul (F := Ideal) dot_S4096x256_S4096x256_S256x256_0_0_1_1_n_n none A B (constant S256x256 .f32 0x00000000#32) (ix2 a b)
      = ∑ r : Fin 4096, A (ix2 r a) * B (ix2 r b) := by
  show FloatOps.matmul dot_S4096x256_S4096x256_S256x256_0_0_1_1_n_n none A B (constant S256x256 .f32 0x00000000#32) (ix2 a b) = _
  rw [Ideal.matmul_constant_zero_apply,
    ← Equiv.sum_comp (contrEquiv1 dot_S4096x256_S4096x256_S256x256_0_0_1_1_n_n 4096 rfl rfl).symm]
  refine Finset.sum_congr rfl fun r _ => ?_
  have c2 := contrEquiv1_symm_val dot_S4096x256_S4096x256_S256x256_0_0_1_1_n_n 4096 rfl rfl r
  have l2 : dot_S4096x256_S4096x256_S256x256_0_0_1_1_n_n.lhsIdx (ix2 a b) ((contrEquiv1 _ 4096 rfl rfl).symm r) = ix2 r a := by
    funext ax; apply Fin.ext
    match ax with
    | ⟨0, _⟩ => exact (DotDims.lhsIdx_val_of_single _ (cl := 0) rfl _ _).trans c2
    | ⟨1, _⟩ => simp [DotDims.lhsIdx, dot_S4096x256_S4096x256_S256x256_0_0_1_1_n_n]; rfl
  have r2 : dot_S4096x256_S4096x256_S256x256_0_0_1_1_n_n.rhsIdx (ix2 a b) ((contrEquiv1 _ 4096 rfl rfl).symm r) = ix2 r b := by
    funext ax; apply Fin.ext
    match ax with
    | ⟨0, _⟩ => exact (DotDims.rhsIdx_val_of_single _ (cr := 0) rfl _ _).trans c2
    | ⟨1, _⟩ => simp [DotDims.rhsIdx, dot_S4096x256_S4096x256_S256x256_0_0_1_1_n_n]; rfl
  rw [l2, r2]

/-- The counts' product into a zero accumulator, read at an index: the sum over the 4096 rows. -/
private theorem dot2_apply (A : FVec Ideal S4096x4 .bf16) (B : FVec Ideal S4096x256 .bf16) (a : Fin 4) (b : Fin 256) :
    matmul (F := Ideal) dot_S4096x4_S4096x256_S4x256_0_0_1_1_n_n none A B (constant S4x256 .f32 0x00000000#32) (ix2 a b)
      = ∑ r : Fin 4096, A (ix2 r a) * B (ix2 r b) := by
  show FloatOps.matmul dot_S4096x4_S4096x256_S4x256_0_0_1_1_n_n none A B (constant S4x256 .f32 0x00000000#32) (ix2 a b) = _
  rw [Ideal.matmul_constant_zero_apply,
    ← Equiv.sum_comp (contrEquiv1 dot_S4096x4_S4096x256_S4x256_0_0_1_1_n_n 4096 rfl rfl).symm]
  refine Finset.sum_congr rfl fun r _ => ?_
  have c2 := contrEquiv1_symm_val dot_S4096x4_S4096x256_S4x256_0_0_1_1_n_n 4096 rfl rfl r
  have l2 : dot_S4096x4_S4096x256_S4x256_0_0_1_1_n_n.lhsIdx (ix2 a b) ((contrEquiv1 _ 4096 rfl rfl).symm r) = ix2 r a := by
    funext ax; apply Fin.ext
    match ax with
    | ⟨0, _⟩ => exact (DotDims.lhsIdx_val_of_single _ (cl := 0) rfl _ _).trans c2
    | ⟨1, _⟩ => simp [DotDims.lhsIdx, dot_S4096x4_S4096x256_S4x256_0_0_1_1_n_n]; rfl
  have r2 : dot_S4096x4_S4096x256_S4x256_0_0_1_1_n_n.rhsIdx (ix2 a b) ((contrEquiv1 _ 4096 rfl rfl).symm r) = ix2 r b := by
    funext ax; apply Fin.ext
    match ax with
    | ⟨0, _⟩ => exact (DotDims.rhsIdx_val_of_single _ (cr := 0) rfl _ _).trans c2
    | ⟨1, _⟩ => simp [DotDims.rhsIdx, dot_S4096x4_S4096x256_S4x256_0_0_1_1_n_n]; rfl
  rw [l2, r2]

/-- The sums' accumulator after a chunk's update: what it held plus the tile's contribution at that chunk's classes. -/
theorem pay6_apply (x0 : Vec Ideal S4096x64 .f32) (x1 x2 : Vec Ideal S4096 .i32) (k : Fin k0_t1_loop.trips)
    (v48 : Vec Ideal S256x256 .f32) (col : Fin 256) (cc : Fin 256) :
    k0_pay6 (F := Ideal) x0 x1 x2 k v48 (ix2 col cc)
      = v48 (ix2 col cc) + tileSum x0 x1 x2 col ⟨256 * k.val + cc.val, by have := trips_lt k; have := cc.isLt; omega⟩ := by
  have hdef : k0_pay6 (F := Ideal) x0 x1 x2 k v48
      = shapeCast S256x256 (addf v48 (matmul dot_S4096x256_S4096x256_S256x256_0_0_1_1_n_n none (stageFeat x0 x2) (k0_pay5 x1 k)
          (constant S256x256 .f32 0x00000000#32))) shapeCasts_S256x256_S256x256 := rfl
  rw [hdef, shapeCast_self, addf_apply, dot1_apply]
  refine congrArg (v48 (ix2 col cc) + ·) ?_
  unfold tileSum
  refine Finset.sum_congr rfl fun r _ => ?_
  rw [stageFeat_apply, pay5_apply]
  by_cases hA : x1 (ix1 r) = wd (256 * k.val + cc.val) <;> by_cases hB : x2 (ix1 r) = wd (col.val / 64) <;> simp [hA, hB]

/-- The counts' accumulator after a chunk's update. -/
theorem pay7_apply (x1 x2 : Vec Ideal S4096 .i32) (k : Fin k0_t1_loop.trips)
    (v55 : Vec Ideal S4x256 .f32) (j : Fin 4) (cc : Fin 256) :
    k0_pay7 (F := Ideal) x1 x2 k v55 (ix2 j cc)
      = v55 (ix2 j cc) + tileCnt x1 x2 j ⟨256 * k.val + cc.val, by have := trips_lt k; have := cc.isLt; omega⟩ := by
  have hdef : k0_pay7 (F := Ideal) x1 x2 k v55
      = shapeCast S4x256 (addf v55 (matmul dot_S4096x4_S4096x256_S4x256_0_0_1_1_n_n none (stageHot x2) (k0_pay5 x1 k)
          (constant S4x256 .f32 0x00000000#32))) shapeCasts_S4x256_S4x256 := rfl
  rw [hdef, shapeCast_self, addf_apply, dot2_apply]
  refine congrArg (v55 (ix2 j cc) + ·) ?_
  unfold tileCnt
  refine Finset.sum_congr rfl fun r _ => ?_
  rw [stageHot_apply, pay5_apply]
  by_cases hA : x1 (ix1 r) = wd (256 * k.val + cc.val) <;> by_cases hB : x2 (ix1 r) = wd j.val <;> simp [hA, hB]

/-- The reset stores zeros. -/
theorem pay2_apply (i : S256x1024.Idx) : k0_pay2 (F := Ideal) i = 0 := by
  unfold k0_pay2
  rw [shapeCast_self]
  exact Ideal.ofBits_zero_f32
theorem pay3_apply (i : S4x1024.Idx) : k0_pay3 (F := Ideal) i = 0 := by
  unfold k0_pay3
  rw [shapeCast_self]
  exact Ideal.ofBits_zero_f32

/-- The copy-out of the accumulators adds a leading axis of extent one. -/
theorem pay8_apply (v27 : Vec Ideal S256x1024 .f32) (z : Fin 1) (col : Fin 256) (kk : Fin 1024) :
    k0_pay8 (F := Ideal) v27 (ix3 z col kk) = v27 (ix2 col kk) := by
  unfold k0_pay8
  refine shapeCast_apply v27 _ (ix3 z col kk) (ix2 col kk) ?_
  rw [Shape.rowMajor_val_two, Shape.rowMajor_val_three]
  show col.val * 1024 + kk.val = (z.val * 256 + col.val) * 1024 + kk.val
  have := z.isLt; omega
theorem pay1_apply (v31 : Vec Ideal S4x1024 .f32) (z : Fin 1) (j : Fin 4) (kk : Fin 1024) :
    k0_pay1 (F := Ideal) v31 (ix3 z j kk) = v31 (ix2 j kk) := by
  unfold k0_pay1
  refine shapeCast_apply v31 _ (ix3 z j kk) (ix2 j kk) ?_
  rw [Shape.rowMajor_val_two, Shape.rowMajor_val_three]
  show j.val * 1024 + kk.val = (z.val * 4 + j.val) * 1024 + kk.val
  have := z.isLt; omega

end Cert.KernelIdeal.TileMath

end
-- ==== Proof.KPiece.lean ====
/-
  What one grid point's body leaves in the two accumulators and the two output blocks, as values over the extended reals.

  The body sweeps the 1024 padded classes in four chunks of 256; chunk k loads columns 256 k … 256 k + 255 of each
  accumulator, adds the tile's contribution at those classes, and stores them back. No chunk is touched twice, so the
  load of chunk k still sees what the accumulator held before the sweep: after the sweep every entry is what it held
  before plus the tile's contribution there. At the first point of each half of the grid the accumulators are zeroed
  first; at every point the output blocks are copies of the accumulators.
-/
import proofs.«413451_j1700807049518_3_alg».proof.Proof.Gen.KernelIdeal.Frame
import proofs.«413451_j1700807049518_3_alg».proof.Proof.Spec
import proofs.«413451_j1700807049518_3_alg».proof.Proof.TileMath
import Idealize.ShloMosaic.Lib.ValueIdx
import Idealize.ShloMosaic.Lib.Pipeline.Value
import Idealize.ShloMosaic.Lib.Tactic

set_option maxRecDepth 16384

noncomputable section

open scoped BigOperators

namespace Cert.KernelIdeal.Piece

open Idealize.ShloMosaic Idealize.ShloMosaic.TcCoe Idealize.SL.Sem Idealize.ShloMosaic.ValueIdx Cert.KernelIdeal Cert.KernelIdeal.Gen Cert.KernelIdeal.TileMath Cert.Agg
open Idealize.ShloMosaic.Pipeline (Dat)

/-! ## The chunk offsets -/

/-- Chunk k of the sums' accumulator starts at column 256 k. -/
theorem off_word : ∀ kv : Fin 4, (Scalar.indexCast (Scalar.muli (Scf.iv (0#32) (1#32) kv.val) 256#32)).toNat = 256 * kv.val := by decide

theorem off1_eq (k : Fin k0_t1_loop.trips) : k0_off1 k = ![0, 256 * k.val] := by
  have e := off_word ⟨k.val, trips_lt k⟩
  show ![0, (Scalar.indexCast (Scalar.muli (Scf.iv (0#32) (1#32) k.val) 256#32)).toNat] = _
  rw [e]

/-- Chunk k of the counts' accumulator starts at column 256 k. -/
theorem off2_eq (k : Fin k0_t1_loop.trips) : k0_off2 k = ![0, 256 * k.val] := by
  have e := off_word ⟨k.val, trips_lt k⟩
  show ![0, (Scalar.indexCast (Scalar.muli (Scf.iv (0#32) (1#32) k.val) 256#32)).toNat] = _
  rw [e]

/-- The sweep has exactly four chunks. -/
theorem trips_eq : k0_t1_loop.trips = 4 := by decide

/-! ## One chunk's stores -/

section Trip
variable {F : FTy → Type} [FloatOps F]
variable (𝒱 : Variants) (c : Dev nD) (i : grid0.Coords) (arg2 : Memref sig .tc .vmem S4096x64 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x256x1024 .f32) (harg5 : arg5.IsWhole) (arg6 : Memref sig .tc .vmem S1x4x1024 .f32) (harg6 : arg6.IsWhole) (arg7 : Memref sig .tc .vmem S256x1024 .f32) (harg7 : arg7.IsWhole) (arg8 : Memref sig .tc .vmem S4x1024 .f32) (harg8 : arg8.IsWhole) (bd : Option 𝒱.V)
  (v3 : Vec F S4096x64 .f32) (v5 : Vec F S4096 .i32) (v7 : Vec F S4096 .i32) (k : Fin k0_t1_loop.trips)
  (f7 : BufTy.Contents (Elt F) arg7.view.ty) (f8 : BufTy.Contents (Elt F) arg8.view.ty)

/-- Chunk k writes one piece into the sums' accumulator: at its columns, the update of what it loads there. -/
theorem trip7 : (trip_k0_t1 (F := F) 𝒱 c bd i arg2 harg2 arg3 harg3 arg4 harg4 arg5 harg5 arg6 harg6 arg7 harg7 arg8 harg8 v3 v5 v7 k).1 f7 f8
    = [⟨Rect.unit (s := S256x1024) (k0_off1 k) S256x256.size (k0_off1_inb k),
        k0_pay6 v3 v5 v7 k (arg7.view.readAt (Elt F) (Rect.unit (s := S256x1024) (k0_off1 k) S256x256.size (k0_off1_inb k)).toLoadRect f7)⟩] := by
  unfold trip_k0_t1
  rfl

/-- Chunk k writes one piece into the counts' accumulator. -/
theorem trip8 : (trip_k0_t1 (F := F) 𝒱 c bd i arg2 harg2 arg3 harg3 arg4 harg4 arg5 harg5 arg6 harg6 arg7 harg7 arg8 harg8 v3 v5 v7 k).2.1 f7 f8
    = [⟨Rect.unit (s := S4x1024) (k0_off2 k) S4x256.size (k0_off2_inb k),
        k0_pay7 v5 v7 k (arg8.view.readAt (Elt F) (Rect.unit (s := S4x1024) (k0_off2 k) S4x256.size (k0_off2_inb k)).toLoadRect f8)⟩] := by
  unfold trip_k0_t1
  rfl

end Trip

/-! ## The sweep over the four chunks -/

section Sweep
variable (𝒱 : Variants) (c : Dev nD) (i : grid0.Coords) (arg2 : Memref sig .tc .vmem S4096x64 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x256x1024 .f32) (harg5 : arg5.IsWhole) (arg6 : Memref sig .tc .vmem S1x4x1024 .f32) (harg6 : arg6.IsWhole) (arg7 : Memref sig .tc .vmem S256x1024 .f32) (harg7 : arg7.IsWhole) (arg8 : Memref sig .tc .vmem S4x1024 .f32) (harg8 : arg8.IsWhole) (bd : Option 𝒱.V)
  (x0 : Vec Ideal S4096x64 .f32) (x1 x2 : Vec Ideal S4096 .i32)
  (G7 : BufTy.Contents (Elt Ideal) arg7.view.ty) (G8 : BufTy.Contents (Elt Ideal) arg8.view.ty)

/-- Reading the sums' accumulator after a chunk's store: inside the chunk's columns the stored value, elsewhere what was there. -/
theorem read_after_chunk7 (k : Fin k0_t1_loop.trips) (w : S256x256.Idx → Elt Ideal .f32)
    (L : List (View.Piece (Elt Ideal) S256x1024 .f32)) (col : Fin 256) (kk : Fin 1024) :
    arg7.view.read (Elt Ideal) (arg7.view.writes (Elt Ideal) G7 (⟨Rect.unit (s := S256x1024) (k0_off1 k) S256x256.size (k0_off1_inb k), w⟩ :: L)) (ix2 col kk)
      = if h : 256 * k.val ≤ kk.val ∧ kk.val < 256 * k.val + 256
        then w (ix2 col (⟨kk.val - 256 * k.val, by omega⟩ : Fin 256))
        else arg7.view.read (Elt Ideal) (arg7.view.writes (Elt Ideal) G7 L) (ix2 col kk) := by
  by_cases h : 256 * k.val ≤ kk.val ∧ kk.val < 256 * k.val + 256
  · rw [dif_pos h]
    have hy : (Rect.unit (s := S256x1024) (k0_off1 k) S256x256.size (k0_off1_inb k)).emb (ix2 col (⟨kk.val - 256 * k.val, by omega⟩ : Fin 256)) = ix2 col kk := by
      funext a
      apply Fin.ext
      match a with
      | ⟨0, _⟩ => show (k0_off1 k) 0 + 1 * col.val = col.val; rw [off1_eq]; show 0 + 1 * col.val = col.val; omega
      | ⟨1, _⟩ => show (k0_off1 k) 1 + 1 * (kk.val - 256 * k.val) = kk.val; rw [off1_eq]; show 256 * k.val + 1 * (kk.val - 256 * k.val) = kk.val; omega
    have e := View.read_writes_cons_emb arg7.view G7 (Rect.unit (s := S256x1024) (k0_off1 k) S256x256.size (k0_off1_inb k)) w L (ix2 col (⟨kk.val - 256 * k.val, by omega⟩ : Fin 256))
    rw [hy] at e
    exact e
  · rw [dif_neg h, View.writes_cons]
    refine View.read_slice_write_of_not_mem _ _ _ _ ?_
    rw [Rect.map_emb_univ, Rect.mem_set_unit]
    intro hm
    apply h
    have h1 := hm 1
    rw [off1_eq] at h1
    exact h1

/-- After the first k chunks of the sweep the sums' accumulator holds, in the columns below 256 k, what it held before plus
    the tile's contribution, and elsewhere what it held before. -/
theorem sweep7 : ∀ (k : ℕ) (hk : k ≤ k0_t1_loop.trips) (col : Fin 256) (kk : Fin 1024),
    arg7.view.read (Elt Ideal) (arg7.view.writes (Elt Ideal) G7
        (pb_k0_t1 (F := Ideal) 𝒱 c bd i arg2 harg2 arg3 harg3 arg4 harg4 arg5 harg5 arg6 harg6 arg7 harg7 arg8 harg8 x0 x1 x2 G7 G8 k).1) (ix2 col kk)
      = if kk.val < 256 * k then arg7.view.read (Elt Ideal) G7 (ix2 col kk) + tileSum x0 x1 x2 col kk
        else arg7.view.read (Elt Ideal) G7 (ix2 col kk)
  | 0, _, col, kk => by
    rw [pb_k0_t1.eq_1, View.writes_nil, if_neg (by omega)]
  | k + 1, hk, col, kk => by
    have ih := sweep7 k (Nat.le_of_succ_le hk)
    have e : pb_k0_t1 (F := Ideal) 𝒱 c bd i arg2 harg2 arg3 harg3 arg4 harg4 arg5 harg5 arg6 harg6 arg7 harg7 arg8 harg8 x0 x1 x2 G7 G8 (k + 1) = _ :=
      pb_k0_t1_succ (F := Ideal) 𝒱 c bd i arg2 harg2 arg3 harg3 arg4 harg4 arg5 harg5 arg6 harg6 arg7 harg7 arg8 harg8 x0 x1 x2 G7 G8 ⟨k, hk⟩
    rw [e]
    dsimp only [tripL_k0_t1]
    rw [trip7, List.singleton_append, read_after_chunk7]
    have hkk : kk.val < 1024 := kk.isLt
    by_cases h : 256 * k ≤ kk.val ∧ kk.val < 256 * k + 256
    · rw [dif_pos h, if_pos (by omega)]
      refine (pay6_apply x0 x1 x2 ⟨k, hk⟩ _ col (⟨kk.val - 256 * k, by omega⟩ : Fin 256)).trans ?_
      rw [View.readAt_apply]
      have hidx : (Rect.unit (s := S256x1024) (k0_off1 ⟨k, hk⟩) S256x256.size (k0_off1_inb ⟨k, hk⟩)).toLoadRect.idx (ix2 col (⟨kk.val - 256 * k, by omega⟩ : Fin 256)) = ix2 col kk := by
        funext a
        apply Fin.ext
        match a with
        | ⟨0, _⟩ => show (k0_off1 ⟨k, hk⟩) 0 + 1 * col.val = col.val; rw [off1_eq]; show 0 + 1 * col.val = col.val; omega
        | ⟨1, _⟩ => show (k0_off1 ⟨k, hk⟩) 1 + 1 * (kk.val - 256 * k) = kk.val; rw [off1_eq]; show 256 * k + 1 * (kk.val - 256 * k) = kk.val; omega
      rw [hidx, ih col kk, if_neg (by omega)]
      congr 2
      exact Fin.ext (by show 256 * k + (kk.val - 256 * k) = kk.val; omega)
    · rw [dif_neg h, ih col kk]
      by_cases h' : kk.val < 256 * k
      · rw [if_pos h', if_pos (by omega)]
      · rw [if_neg h', if_neg (by omega)]

/-- Reading the counts' accumulator after a chunk's store: inside the chunk's columns the stored value, elsewhere what was there. -/
theorem read_after_chunk8 (k : Fin k0_t1_loop.trips) (w : S4x256.Idx → Elt Ideal .f32)
    (L : List (View.Piece (Elt Ideal) S4x1024 .f32)) (col : Fin 4) (kk : Fin 1024) :
    arg8.view.read (Elt Ideal) (arg8.view.writes (Elt Ideal) G8 (⟨Rect.unit (s := S4x1024) (k0_off2 k) S4x256.size (k0_off2_inb k), w⟩ :: L)) (ix2 col kk)
      = if h : 256 * k.val ≤ kk.val ∧ kk.val < 256 * k.val + 256
        then w (ix2 col (⟨kk.val - 256 * k.val, by omega⟩ : Fin 256))
        else arg8.view.read (Elt Ideal) (arg8.view.writes (Elt Ideal) G8 L) (ix2 col kk) := by
  by_cases h : 256 * k.val ≤ kk.val ∧ kk.val < 256 * k.val + 256
  · rw [dif_pos h]
    have hy : (Rect.unit (s := S4x1024) (k0_off2 k) S4x256.size (k0_off2_inb k)).emb (ix2 col (⟨kk.val - 256 * k.val, by omega⟩ : Fin 256)) = ix2 col kk := by
      funext a
      apply Fin.ext
      match a with
      | ⟨0, _⟩ => show (k0_off2 k) 0 + 1 * col.val = col.val; rw [off2_eq]; show 0 + 1 * col.val = col.val; omega
      | ⟨1, _⟩ => show (k0_off2 k) 1 + 1 * (kk.val - 256 * k.val) = kk.val; rw [off2_eq]; show 256 * k.val + 1 * (kk.val - 256 * k.val) = kk.val; omega
    have e := View.read_writes_cons_emb arg8.view G8 (Rect.unit (s := S4x1024) (k0_off2 k) S4x256.size (k0_off2_inb k)) w L (ix2 col (⟨kk.val - 256 * k.val, by omega⟩ : Fin 256))
    rw [hy] at e
    exact e
  · rw [dif_neg h, View.writes_cons]
    refine View.read_slice_write_of_not_mem _ _ _ _ ?_
    rw [Rect.map_emb_univ, Rect.mem_set_unit]
    intro hm
    apply h
    have h1 := hm 1
    rw [off2_eq] at h1
    exact h1

/-- After the first k chunks of the sweep the counts' accumulator holds, in the columns below 256 k, what it held before plus
    the tile's contribution, and elsewhere what it held before. -/
theorem sweep8 : ∀ (k : ℕ) (hk : k ≤ k0_t1_loop.trips) (col : Fin 4) (kk : Fin 1024),
    arg8.view.read (Elt Ideal) (arg8.view.writes (Elt Ideal) G8
        (pb_k0_t1 (F := Ideal) 𝒱 c bd i arg2 harg2 arg3 harg3 arg4 harg4 arg5 harg5 arg6 harg6 arg7 harg7 arg8 harg8 x0 x1 x2 G7 G8 k).2) (ix2 col kk)
      = if kk.val < 256 * k then arg8.view.read (Elt Ideal) G8 (ix2 col kk) + tileCnt x1 x2 col kk
        else arg8.view.read (Elt Ideal) G8 (ix2 col kk)
  | 0, _, col, kk => by
    rw [pb_k0_t1.eq_1, View.writes_nil, if_neg (by omega)]
  | k + 1, hk, col, kk => by
    have ih := sweep8 k (Nat.le_of_succ_le hk)
    have e : pb_k0_t1 (F := Ideal) 𝒱 c bd i arg2 harg2 arg3 harg3 arg4 harg4 arg5 harg5 arg6 harg6 arg7 harg7 arg8 harg8 x0 x1 x2 G7 G8 (k + 1) = _ :=
      pb_k0_t1_succ (F := Ideal) 𝒱 c bd i arg2 harg2 arg3 harg3 arg4 harg4 arg5 harg5 arg6 harg6 arg7 harg7 arg8 harg8 x0 x1 x2 G7 G8 ⟨k, hk⟩
    rw [e]
    dsimp only [tripL_k0_t1]
    rw [trip8, List.singleton_append, read_after_chunk8]
    have hkk : kk.val < 1024 := kk.isLt
    by_cases h : 256 * k ≤ kk.val ∧ kk.val < 256 * k + 256
    · rw [dif_pos h, if_pos (by omega)]
      refine (pay7_apply x1 x2 ⟨k, hk⟩ _ col (⟨kk.val - 256 * k, by omega⟩ : Fin 256)).trans ?_
      rw [View.readAt_apply]
      have hidx : (Rect.unit (s := S4x1024) (k0_off2 ⟨k, hk⟩) S4x256.size (k0_off2_inb ⟨k, hk⟩)).toLoadRect.idx (ix2 col (⟨kk.val - 256 * k, by omega⟩ : Fin 256)) = ix2 col kk := by
        funext a
        apply Fin.ext
        match a with
        | ⟨0, _⟩ => show (k0_off2 ⟨k, hk⟩) 0 + 1 * col.val = col.val; rw [off2_eq]; show 0 + 1 * col.val = col.val; omega
        | ⟨1, _⟩ => show (k0_off2 ⟨k, hk⟩) 1 + 1 * (kk.val - 256 * k) = kk.val; rw [off2_eq]; show 256 * k + 1 * (kk.val - 256 * k) = kk.val; omega
      rw [hidx, ih col kk, if_neg (by omega)]
      congr 2
      exact Fin.ext (by show 256 * k + (kk.val - 256 * k) = kk.val; omega)
    · rw [dif_neg h, ih col kk]
      by_cases h' : kk.val < 256 * k
      · rw [if_pos h', if_pos (by omega)]
      · rw [if_neg h', if_neg (by omega)]

end Sweep

/-! ## What each case of the body leaves -/

section Cases
variable (c : Dev nD) (i : grid0.Coords) (arg2 : Memref sig .tc .vmem S4096x64 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x256x1024 .f32) (harg5 : arg5.IsWhole) (arg6 : Memref sig .tc .vmem S1x4x1024 .f32) (harg6 : arg6.IsWhole) (arg7 : Memref sig .tc .vmem S256x1024 .f32) (harg7 : arg7.IsWhole) (arg8 : Memref sig .tc .vmem S4x1024 .f32) (harg8 : arg8.IsWhole)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem trips_word : Scf.trips (0#32) (Scalar.addi 0#32 4#32) 1#32 = 4 := by decide

/-- At a point that carries the accumulators, the sums' accumulator ends at what it held plus the tile's contribution. -/
theorem sout_B_0 (hc0 : ¬cond0_0 i) (x0 : Vec Ideal S4096x64 .f32) (x1 x2 : Vec Ideal S4096 .i32)
    (xs0 : Vec Ideal S256x1024 .f32) (xs1 : Vec Ideal S4x1024 .f32) (col : Fin 256) (kk : Fin 1024) :
    sout0_B_0 (F := Ideal) c i arg2 harg2 arg3 harg3 arg4 harg4 arg5 harg5 arg6 harg6 arg7 harg7 arg8 harg8 hc0 x0 x1 x2 xs0 xs1 (ix2 col kk) = xs0 (ix2 col kk) + tileSum x0 x1 x2 col kk := by
  unfold sout0_B_0
  rw [View.read_writes_of_cover VS0_0 VS0_0.junk arg7.view (harg7.unread xs0) _ (scover0_B_0 c i arg2 harg2 arg3 harg3 arg4 harg4 arg5 harg5 arg6 harg6 arg7 harg7 arg8 harg8 hc0 x0 x1 x2 xs0 xs1)]
  unfold kernelRun0_B
  dsimp only
  simp only [View.readAt_eq_ld, harg2.read_unread, harg3.read_unread, harg4.read_unread,
    View.ld_unit_zero (S := S4096x64) hz2, View.ld_unit_zero (S := S4096) hz1]
  rw [trips_word, sweep7 Variants.none c i arg2 harg2 arg3 harg3 arg4 harg4 arg5 harg5 arg6 harg6 arg7 harg7 arg8 harg8 none x0 x1 x2 _ _ 4 (by rw [trips_eq]) col kk,
    if_pos (by have := kk.isLt; omega), harg7.read_unread]

/-- At the first point of a half the accumulators are zeroed first: the sums' accumulator ends at the tile's contribution. -/
theorem sout_A_0 (hc0 : cond0_0 i) (x0 : Vec Ideal S4096x64 .f32) (x1 x2 : Vec Ideal S4096 .i32)
    (col : Fin 256) (kk : Fin 1024) :
    sout0_A_0 (F := Ideal) c i arg2 harg2 arg3 harg3 arg4 harg4 arg5 harg5 arg6 harg6 arg7 harg7 arg8 harg8 hc0 x0 x1 x2 (ix2 col kk) = tileSum x0 x1 x2 col kk := by
  unfold sout0_A_0
  rw [View.read_writes_of_cover VS0_0 VS0_0.junk arg7.view arg7.view.junk _ (scover0_A_0 c i arg2 harg2 arg3 harg3 arg4 harg4 arg5 harg5 arg6 harg6 arg7 harg7 arg8 harg8 hc0 x0 x1 x2)]
  unfold kernelRun0_A
  dsimp only
  sl_unfold_words
  simp only [View.readAt_eq_ld, harg2.read_unread, harg3.read_unread, harg4.read_unread,
    View.ld_unit_zero (S := S4096x64) hz2, View.ld_unit_zero (S := S4096) hz1]
  rw [trips_word, View.writes_append, sweep7 Variants.none c i arg2 harg2 arg3 harg3 arg4 harg4 arg5 harg5 arg6 harg6 arg7 harg7 arg8 harg8 none x0 x1 x2 _ _ 4 (by rw [trips_eq]) col kk,
    if_pos (by have := kk.isLt; omega), View.read_writes_junk_eq_canon, View.canon_unit_zero hz2, pay2_apply, zero_add]

/-- At a point that carries the accumulators, the counts' accumulator ends at what it held plus the tile's count. -/
theorem sout_B_1 (hc0 : ¬cond0_0 i) (x0 : Vec Ideal S4096x64 .f32) (x1 x2 : Vec Ideal S4096 .i32)
    (xs0 : Vec Ideal S256x1024 .f32) (xs1 : Vec Ideal S4x1024 .f32) (j : Fin 4) (kk : Fin 1024) :
    sout0_B_1 (F := Ideal) c i arg2 harg2 arg3 harg3 arg4 harg4 arg5 harg5 arg6 harg6 arg7 harg7 arg8 harg8 hc0 x0 x1 x2 xs0 xs1 (ix2 j kk) = xs1 (ix2 j kk) + tileCnt x1 x2 j kk := by
  unfold sout0_B_1
  rw [View.read_writes_of_cover VS0_1 VS0_1.junk arg8.view (harg8.unread xs1) _ (scover0_B_1 c i arg2 harg2 arg3 harg3 arg4 harg4 arg5 harg5 arg6 harg6 arg7 harg7 arg8 harg8 hc0 x0 x1 x2 xs0 xs1)]
  unfold kernelRun0_B
  dsimp only
  simp only [View.readAt_eq_ld, harg2.read_unread, harg3.read_unread, harg4.read_unread,
    View.ld_unit_zero (S := S4096x64) hz2, View.ld_unit_zero (S := S4096) hz1]
  rw [trips_word, sweep8 Variants.none c i arg2 harg2 arg3 harg3 arg4 harg4 arg5 harg5 arg6 harg6 arg7 harg7 arg8 harg8 none x0 x1 x2 _ _ 4 (by rw [trips_eq]) j kk,
    if_pos (by have := kk.isLt; omega), harg8.read_unread]

/-- At the first point of a half the counts' accumulator ends at the tile's count. -/
theorem sout_A_1 (hc0 : cond0_0 i) (x0 : Vec Ideal S4096x64 .f32) (x1 x2 : Vec Ideal S4096 .i32)
    (j : Fin 4) (kk : Fin 1024) :
    sout0_A_1 (F := Ideal) c i arg2 harg2 arg3 harg3 arg4 harg4 arg5 harg5 arg6 harg6 arg7 harg7 arg8 harg8 hc0 x0 x1 x2 (ix2 j kk) = tileCnt x1 x2 j kk := by
  unfold sout0_A_1
  rw [View.read_writes_of_cover VS0_1 VS0_1.junk arg8.view arg8.view.junk _ (scover0_A_1 c i arg2 harg2 arg3 harg3 arg4 harg4 arg5 harg5 arg6 harg6 arg7 harg7 arg8 harg8 hc0 x0 x1 x2)]
  unfold kernelRun0_A
  dsimp only
  sl_unfold_words
  simp only [View.readAt_eq_ld, harg2.read_unread, harg3.read_unread, harg4.read_unread,
    View.ld_unit_zero (S := S4096x64) hz2, View.ld_unit_zero (S := S4096) hz1]
  rw [trips_word, View.writes_append, sweep8 Variants.none c i arg2 harg2 arg3 harg3 arg4 harg4 arg5 harg5 arg6 harg6 arg7 harg7 arg8 harg8 none x0 x1 x2 _ _ 4 (by rw [trips_eq]) j kk,
    if_pos (by have := kk.isLt; omega), View.read_writes_junk_eq_canon, View.canon_unit_zero hz2, pay3_apply, zero_add]

theorem trips_word' : Scf.trips k0_t1_loop.lb k0_t1_loop.ub k0_t1_loop.st = 4 := by decide

/-- The sums' output block is a copy of the sums' accumulator after the sweep (a point that carries). -/
theorem out_B_3 (hc0 : ¬cond0_0 i) (x0 : Vec Ideal S4096x64 .f32) (x1 x2 : Vec Ideal S4096 .i32)
    (xs0 : Vec Ideal S256x1024 .f32) (xs1 : Vec Ideal S4x1024 .f32) (z : Fin 1) (col : Fin 256) (kk : Fin 1024) :
    out0_B_3 (F := Ideal) c i arg2 harg2 arg3 harg3 arg4 harg4 arg5 harg5 arg6 harg6 arg7 harg7 arg8 harg8 hc0 x0 x1 x2 xs0 xs1 (ix3 z col kk) = xs0 (ix2 col kk) + tileSum x0 x1 x2 col kk := by
  unfold out0_B_3
  rw [View.read_writes_junk_eq_canon]
  unfold kernelRun0_B
  dsimp only
  rw [View.canon_unit_zero hz3, pay8_apply]
  sl_unfold_words
  simp only [View.readAt_eq_ld, harg2.read_unread, harg3.read_unread, harg4.read_unread,
    View.ld_unit_zero (S := S4096x64) hz2, View.ld_unit_zero (S := S4096) hz1, View.ld_unit_zero (S := S256x1024) hz2]
  rw [trips_word', sweep7 Variants.none c i arg2 harg2 arg3 harg3 arg4 harg4 arg5 harg5 arg6 harg6 arg7 harg7 arg8 harg8 none x0 x1 x2 _ _ 4 (by rw [trips_eq]) col kk,
    if_pos (by have := kk.isLt; omega), harg7.read_unread]

/-- The sums' output block at the first point of a half. -/
theorem out_A_3 (hc0 : cond0_0 i) (x0 : Vec Ideal S4096x64 .f32) (x1 x2 : Vec Ideal S4096 .i32)
    (z : Fin 1) (col : Fin 256) (kk : Fin 1024) :
    out0_A_3 (F := Ideal) c i arg2 harg2 arg3 harg3 arg4 harg4 arg5 harg5 arg6 harg6 arg7 harg7 arg8 harg8 hc0 x0 x1 x2 (ix3 z col kk) = tileSum x0 x1 x2 col kk := by
  unfold out0_A_3
  rw [View.read_writes_junk_eq_canon]
  unfold kernelRun0_A
  dsimp only
  rw [View.canon_unit_zero hz3, pay8_apply]
  sl_unfold_words
  simp only [View.readAt_eq_ld, harg2.read_unread, harg3.read_unread, harg4.read_unread,
    View.ld_unit_zero (S := S4096x64) hz2, View.ld_unit_zero (S := S4096) hz1, View.ld_unit_zero (S := S256x1024) hz2]
  rw [trips_word', View.writes_append, sweep7 Variants.none c i arg2 harg2 arg3 harg3 arg4 harg4 arg5 harg5 arg6 harg6 arg7 harg7 arg8 harg8 none x0 x1 x2 _ _ 4 (by rw [trips_eq]) col kk,
    if_pos (by have := kk.isLt; omega), View.read_writes_junk_eq_canon, View.canon_unit_zero hz2, pay2_apply, zero_add]

/-- The counts' output block is a copy of the counts' accumulator after the sweep (a point that carries). -/
theorem out_B_4 (hc0 : ¬cond0_0 i) (x0 : Vec Ideal S4096x64 .f32) (x1 x2 : Vec Ideal S4096 .i32)
    (xs0 : Vec Ideal S256x1024 .f32) (xs1 : Vec Ideal S4x1024 .f32) (z : Fin 1) (j : Fin 4) (kk : Fin 1024) :
    out0_B_4 (F := Ideal) c i arg2 harg2 arg3 harg3 arg4 harg4 arg5 harg5 arg6 harg6 arg7 harg7 arg8 harg8 hc0 x0 x1 x2 xs0 xs1 (ix3 z j kk) = xs1 (ix2 j kk) + tileCnt x1 x2 j kk := by
  unfold out0_B_4
  rw [View.read_writes_junk_eq_canon]
  unfold kernelRun0_B
  dsimp only
  rw [View.canon_unit_zero hz3, pay1_apply]
  sl_unfold_words
  simp only [View.readAt_eq_ld, harg2.read_unread, harg3.read_unread, harg4.read_unread,
    View.ld_unit_zero (S := S4096x64) hz2, View.ld_unit_zero (S := S4096) hz1, View.ld_unit_zero (S := S4x1024) hz2]
  rw [trips_word', sweep8 Variants.none c i arg2 harg2 arg3 harg3 arg4 harg4 arg5 harg5 arg6 harg6 arg7 harg7 arg8 harg8 none x0 x1 x2 _ _ 4 (by rw [trips_eq]) j kk,
    if_pos (by have := kk.isLt; omega), harg8.read_unread]

/-- The counts' output block at the first point of a half. -/
theorem out_A_4 (hc0 : cond0_0 i) (x0 : Vec Ideal S4096x64 .f32) (x1 x2 : Vec Ideal S4096 .i32)
    (z : Fin 1) (j : Fin 4) (kk : Fin 1024) :
    out0_A_4 (F := Ideal) c i arg2 harg2 arg3 harg3 arg4 harg4 arg5 harg5 arg6 harg6 arg7 harg7 arg8 harg8 hc0 x0 x1 x2 (ix3 z j kk) = tileCnt x1 x2 j kk := by
  unfold out0_A_4
  rw [View.read_writes_junk_eq_canon]
  unfold kernelRun0_A
  dsimp only
  rw [View.canon_unit_zero hz3, pay1_apply]
  sl_unfold_words
  simp only [View.readAt_eq_ld, harg2.read_unread, harg3.read_unread, harg4.read_unread,
    View.ld_unit_zero (S := S4096x64) hz2, View.ld_unit_zero (S := S4096) hz1, View.ld_unit_zero (S := S4x1024) hz2]
  rw [trips_word', View.writes_append, sweep8 Variants.none c i arg2 harg2 arg3 harg3 arg4 harg4 arg5 harg5 arg6 harg6 arg7 harg7 arg8 harg8 none x0 x1 x2 _ _ 4 (by rw [trips_eq]) j kk,
    if_pos (by have := kk.isLt; omega), View.read_writes_junk_eq_canon, View.canon_unit_zero hz2, pay3_apply, zero_add]

end Cases

end Cert.KernelIdeal.Piece

end
-- ==== Proof.KAcc.lean ====
/-
  The accumulators along the grid, and the two arrays the region leaves.

  Point t of the 256 reads tile t of the rows (rows 4096 t … 4096 t + 4095 of the features and of the two word vectors).
  By the case values of one point, the accumulators after point t are the running sums of the tiles' contributions since
  the last reset (points 0 and 128), and the output blocks are copies of them. The output block of half h is written back
  after its last point, 128 h + 127: so the arrays end holding, at (h, ·, ·), the sum of the contributions of tiles
  128 h … 128 h + 127.
-/
import proofs.«413451_j1700807049518_3_alg».proof.Proof.Gen.KernelIdeal.Frame
import proofs.«413451_j1700807049518_3_alg».proof.Proof.Spec
import proofs.«413451_j1700807049518_3_alg».proof.Proof.AccMath
import proofs.«413451_j1700807049518_3_alg».proof.Proof.KPiece
import Idealize.ShloMosaic.Lib.ValueIdx
import Idealize.ShloMosaic.Lib.Pipeline.Value

set_option maxRecDepth 16384

noncomputable section

open scoped BigOperators

namespace Cert.KernelIdeal.Acc

open Idealize.ShloMosaic Idealize.ShloMosaic.TcCoe Idealize.SL.Sem Idealize.ShloMosaic.ValueIdx Cert.KernelIdeal Cert.KernelIdeal.Gen Cert.KernelIdeal.Piece Cert.Agg
open Idealize.ShloMosaic.Pipeline (Dat)

variable (m : (ℓ : Loc nD τ sig) → Buf (Elt Ideal) ℓ)

/-- The feature table and the two word vectors, as the launch memory holds them. -/
abbrev feat (c : Dev nD) : (⟨2, ![1048576, 64]⟩ : Shape).Idx → EReal := m ((c : Thread nD τ).loc main_arg0)
abbrev clsW (c : Dev nD) : (⟨1, ![1048576]⟩ : Shape).Idx → BitVec 32 := m ((c : Thread nD τ).loc main_arg1)
abbrev stgW (c : Dev nD) : (⟨1, ![1048576]⟩ : Shape).Idx → BitVec 32 := m ((c : Thread nD τ).loc main_arg2)

/-- Grid point t as a tile number. -/
abbrev tile (t : Fin cfg0.N) : Fin 256 := ⟨t.val, lt_of_lt_of_eq t.isLt N_0⟩

/-- The printed index maps, decided over the grid: the three inputs' block index is the point's number, the two outputs'
    block index is the half the point lies in. -/
theorem idx_facts : ∀ t : Fin cfg0.N,
    win0_0.index t (0 : Fin 2) = t.val ∧ win0_0.index t (1 : Fin 2) = 0
    ∧ win0_1.index t (0 : Fin 1) = t.val ∧ win0_2.index t (0 : Fin 1) = t.val
    ∧ win0_3.index t (0 : Fin 3) = t.val / 128 ∧ win0_3.index t (1 : Fin 3) = 0 ∧ win0_3.index t (2 : Fin 3) = 0
    ∧ win0_4.index t (0 : Fin 3) = t.val / 128 ∧ win0_4.index t (1 : Fin 3) = 0 ∧ win0_4.index t (2 : Fin 3) = 0 :=
  (by decide +kernel : ∀ t : Fin grid0.N, _)

/-- The features' block at point t is tile t of the rows. -/
theorem iblk0_apply (c : Dev nD) (t : Fin cfg0.N) (r : Fin 4096) (d : Fin 64) :
    iblk m c 0 t (ix2 r d) = rowBlk (feat m c) (tile t) (ix2 r d) := by
  show V m c main_arg0 (((cfg0.win 0).blk t).view.emb (ix2 r d)) = m ((c : Thread nD τ).loc main_arg0) _
  rw [V_main_arg0]
  congr 1
  funext a; apply Fin.ext
  obtain ⟨e0, e1, -⟩ := idx_facts t
  match a with
  | ⟨0, _⟩ => show win0_0.index t (0 : Fin 2) * 4096 + 1 * r.val = 4096 * t.val + r.val; rw [e0]; omega
  | ⟨1, _⟩ => show win0_0.index t (1 : Fin 2) * 64 + 1 * d.val = d.val; rw [e1]; omega

/-- The class words' block at point t is tile t of the vector. -/
theorem iblk1_apply (c : Dev nD) (t : Fin cfg0.N) (r : Fin 4096) :
    iblk m c 1 t (ix1 r) = vecBlk (clsW m c) (tile t) (ix1 r) := by
  show V m c main_arg1 (((cfg0.win 1).blk t).view.emb (ix1 r)) = m ((c : Thread nD τ).loc main_arg1) _
  rw [V_main_arg1]
  congr 1
  funext a; apply Fin.ext
  obtain ⟨-, -, e2, -⟩ := idx_facts t
  match a with
  | ⟨0, _⟩ => show win0_1.index t (0 : Fin 1) * 4096 + 1 * r.val = 4096 * t.val + r.val; rw [e2]; omega

/-- The stage words' block at point t is tile t of the vector. -/
theorem iblk2_apply (c : Dev nD) (t : Fin cfg0.N) (r : Fin 4096) :
    iblk m c 2 t (ix1 r) = vecBlk (stgW m c) (tile t) (ix1 r) := by
  show V m c main_arg2 (((cfg0.win 2).blk t).view.emb (ix1 r)) = m ((c : Thread nD τ).loc main_arg2) _
  rw [V_main_arg2]
  congr 1
  funext a; apply Fin.ext
  obtain ⟨-, -, -, e3, -⟩ := idx_facts t
  match a with
  | ⟨0, _⟩ => show win0_2.index t (0 : Fin 1) * 4096 + 1 * r.val = 4096 * t.val + r.val; rw [e3]; omega

/-- So the tile arithmetic on the point's three blocks is the tile's contribution. -/
theorem tileSum_iblk (c : Dev nD) (t : Fin cfg0.N) (col : Fin 256) (kk : Fin 1024) :
    tileSum (iblk m c 0 t) (iblk m c 1 t) (iblk m c 2 t) col kk = tileSumAt (feat m c) (clsW m c) (stgW m c) (tile t) col kk := by
  unfold tileSumAt tileSum
  refine Finset.sum_congr rfl fun r _ => ?_
  rw [iblk1_apply, iblk2_apply, iblk0_apply]

theorem tileCnt_iblk (c : Dev nD) (t : Fin cfg0.N) (j : Fin 4) (kk : Fin 1024) :
    tileCnt (iblk m c 1 t) (iblk m c 2 t) j kk = tileCntAt (clsW m c) (stgW m c) (tile t) j kk := by
  unfold tileCntAt tileCnt
  refine Finset.sum_congr rfl fun r _ => ?_
  rw [iblk1_apply, iblk2_apply]

/-! ## One point -/

/-- A point that resets (the first of a half): accumulators and output blocks hold the tile's contribution. -/
theorem stepA (c : Dev nD) (t : Fin cfg0.N) (h0 : t.val % 128 = 0) :
    (∀ (col : Fin 256) (kk : Fin 1024), (outsAt0 m c t.val t.isLt).2.2.1 (ix2 col kk) = tileSumAt (feat m c) (clsW m c) (stgW m c) (tile t) col kk)
    ∧ (∀ (j : Fin 4) (kk : Fin 1024), (outsAt0 m c t.val t.isLt).2.2.2 (ix2 j kk) = tileCntAt (clsW m c) (stgW m c) (tile t) j kk)
    ∧ (∀ (z : Fin 1) (col : Fin 256) (kk : Fin 1024), (outsAt0 m c t.val t.isLt).1 (ix3 z col kk) = tileSumAt (feat m c) (clsW m c) (stgW m c) (tile t) col kk)
    ∧ (∀ (z : Fin 1) (j : Fin 4) (kk : Fin 1024), (outsAt0 m c t.val t.isLt).2.1 (ix3 z j kk) = tileCntAt (clsW m c) (stgW m c) (tile t) j kk) := by
  rw [outsAt0_A m c t h0]
  dsimp only
  refine ⟨fun col kk => ?_, fun j kk => ?_, fun z col kk => ?_, fun z j kk => ?_⟩
  · exact (sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) col kk).trans (tileSum_iblk m c t col kk)
  · exact (sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) j kk).trans (tileCnt_iblk m c t j kk)
  · exact (out_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) z col kk).trans (tileSum_iblk m c t col kk)
  · exact (out_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) z j kk).trans (tileCnt_iblk m c t j kk)

/-- A point that carries: accumulators and output blocks hold what the accumulators held after the point before, plus the
    tile's contribution. -/
theorem stepB (c : Dev nD) (t : Fin cfg0.N) (h0 : ¬t.val % 128 = 0) :
    (∀ (col : Fin 256) (kk : Fin 1024), (outsAt0 m c t.val t.isLt).2.2.1 (ix2 col kk)
        = (outsAt0 m c (t.val - 1) (Nat.lt_of_le_of_lt (Nat.sub_le _ _) t.isLt)).2.2.1 (ix2 col kk) + tileSumAt (feat m c) (clsW m c) (stgW m c) (tile t) col kk)
    ∧ (∀ (j : Fin 4) (kk : Fin 1024), (outsAt0 m c t.val t.isLt).2.2.2 (ix2 j kk)
        = (outsAt0 m c (t.val - 1) (Nat.lt_of_le_of_lt (Nat.sub_le _ _) t.isLt)).2.2.2 (ix2 j kk) + tileCntAt (clsW m c) (stgW m c) (tile t) j kk)
    ∧ (∀ (z : Fin 1) (col : Fin 256) (kk : Fin 1024), (outsAt0 m c t.val t.isLt).1 (ix3 z col kk)
        = (outsAt0 m c (t.val - 1) (Nat.lt_of_le_of_lt (Nat.sub_le _ _) t.isLt)).2.2.1 (ix2 col kk) + tileSumAt (feat m c) (clsW m c) (stgW m c) (tile t) col kk)
    ∧ (∀ (z : Fin 1) (j : Fin 4) (kk : Fin 1024), (outsAt0 m c t.val t.isLt).2.1 (ix3 z j kk)
        = (outsAt0 m c (t.val - 1) (Nat.lt_of_le_of_lt (Nat.sub_le _ _) t.isLt)).2.2.2 (ix2 j kk) + tileCntAt (clsW m c) (stgW m c) (tile t) j kk) := by
  rw [outsAt0_B m c t h0]
  dsimp only
  refine ⟨fun col kk => ?_, fun j kk => ?_, fun z col kk => ?_, fun z j kk => ?_⟩
  · exact (sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) _ _ col kk).trans (congrArg _ (tileSum_iblk m c t col kk))
  · exact (sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) _ _ j kk).trans (congrArg _ (tileCnt_iblk m c t j kk))
  · exact (out_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) _ _ z col kk).trans (congrArg _ (tileSum_iblk m c t col kk))
  · exact (out_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) _ _ z j kk).trans (congrArg _ (tileCnt_iblk m c t j kk))

/-! ## Along the grid -/

theorem tsa_tile (c : Dev nD) (t : Fin cfg0.N) (col : Fin 256) (kk : Fin 1024) :
    tsa (feat m c) (clsW m c) (stgW m c) col kk t.val = tileSumAt (feat m c) (clsW m c) (stgW m c) (tile t) col kk := by
  unfold tsa; rw [dif_pos (lt_of_lt_of_eq t.isLt N_0)]

theorem tca_tile (c : Dev nD) (t : Fin cfg0.N) (j : Fin 4) (kk : Fin 1024) :
    tca (clsW m c) (stgW m c) j kk t.val = tileCntAt (clsW m c) (stgW m c) (tile t) j kk := by
  unfold tca; rw [dif_pos (lt_of_lt_of_eq t.isLt N_0)]

/-- After grid point n the accumulators, and the output blocks, hold the running sums since the last reset. -/
theorem outs_eq (c : Dev nD) : ∀ (n : ℕ) (h : n < cfg0.N),
    (∀ (col : Fin 256) (kk : Fin 1024), (outsAt0 m c n h).2.2.1 (ix2 col kk) = accSum (feat m c) (clsW m c) (stgW m c) col kk n)
    ∧ (∀ (j : Fin 4) (kk : Fin 1024), (outsAt0 m c n h).2.2.2 (ix2 j kk) = accCnt (clsW m c) (stgW m c) j kk n)
    ∧ (∀ (z : Fin 1) (col : Fin 256) (kk : Fin 1024), (outsAt0 m c n h).1 (ix3 z col kk) = accSum (feat m c) (clsW m c) (stgW m c) col kk n)
    ∧ (∀ (z : Fin 1) (j : Fin 4) (kk : Fin 1024), (outsAt0 m c n h).2.1 (ix3 z j kk) = accCnt (clsW m c) (stgW m c) j kk n)
  | 0, h => by
    obtain ⟨a1, a2, a3, a4⟩ := stepA m c ⟨0, h⟩ rfl
    exact ⟨fun col kk => (a1 col kk).trans (tsa_tile m c ⟨0, h⟩ col kk).symm,
      fun j kk => (a2 j kk).trans (tca_tile m c ⟨0, h⟩ j kk).symm,
      fun z col kk => (a3 z col kk).trans (tsa_tile m c ⟨0, h⟩ col kk).symm,
      fun z j kk => (a4 z j kk).trans (tca_tile m c ⟨0, h⟩ j kk).symm⟩
  | n + 1, h => by
    obtain ⟨i1, i2, i3, i4⟩ := outs_eq c n (Nat.lt_of_succ_lt h)
    by_cases h0 : (n + 1) % 128 = 0
    · obtain ⟨a1, a2, a3, a4⟩ := stepA m c ⟨n + 1, h⟩ h0
      have es : ∀ col kk, accSum (feat m c) (clsW m c) (stgW m c) col kk (n + 1) = tsa (feat m c) (clsW m c) (stgW m c) col kk (n + 1) := fun col kk => by
        rw [accSum, if_pos h0]
      have ec : ∀ j kk, accCnt (clsW m c) (stgW m c) j kk (n + 1) = tca (clsW m c) (stgW m c) j kk (n + 1) := fun j kk => by
        rw [accCnt, if_pos h0]
      exact ⟨fun col kk => (a1 col kk).trans ((tsa_tile m c ⟨n + 1, h⟩ col kk).symm.trans (es col kk).symm),
        fun j kk => (a2 j kk).trans ((tca_tile m c ⟨n + 1, h⟩ j kk).symm.trans (ec j kk).symm),
        fun z col kk => (a3 z col kk).trans ((tsa_tile m c ⟨n + 1, h⟩ col kk).symm.trans (es col kk).symm),
        fun z j kk => (a4 z j kk).trans ((tca_tile m c ⟨n + 1, h⟩ j kk).symm.trans (ec j kk).symm)⟩
    · obtain ⟨b1, b2, b3, b4⟩ := stepB m c ⟨n + 1, h⟩ h0
      have es : ∀ col kk, accSum (feat m c) (clsW m c) (stgW m c) col kk (n + 1) = accSum (feat m c) (clsW m c) (stgW m c) col kk n + tsa (feat m c) (clsW m c) (stgW m c) col kk (n + 1) := fun col kk => by
        rw [accSum, if_neg h0]
      have ec : ∀ j kk, accCnt (clsW m c) (stgW m c) j kk (n + 1) = accCnt (clsW m c) (stgW m c) j kk n + tca (clsW m c) (stgW m c) j kk (n + 1) := fun j kk => by
        rw [accCnt, if_neg h0]
      refine ⟨fun col kk => (b1 col kk).trans ?_, fun j kk => (b2 j kk).trans ?_, fun z col kk => (b3 z col kk).trans ?_, fun z j kk => (b4 z j kk).trans ?_⟩
      · rw [es col kk]; exact congrArg₂ (· + ·) (i1 col kk) (tsa_tile m c ⟨n + 1, h⟩ col kk).symm
      · rw [ec j kk]; exact congrArg₂ (· + ·) (i2 j kk) (tca_tile m c ⟨n + 1, h⟩ j kk).symm
      · rw [es col kk]; exact congrArg₂ (· + ·) (i1 col kk) (tsa_tile m c ⟨n + 1, h⟩ col kk).symm
      · rw [ec j kk]; exact congrArg₂ (· + ·) (i2 j kk) (tca_tile m c ⟨n + 1, h⟩ j kk).symm

/-! ## The two arrays the region leaves -/

/-- What a point that writes the sums' block back (the last of a half) writes is that half's block of the halves' sums. -/
theorem flushed3 (c : Dev nD) (t : Fin cfg0.N) (hf : (cfg0.win 3).flush t = true) :
    (dats m 0 c).flushed 3 t = ((cfg0.win 3).blk t).view.read (Elt Ideal) (halfSum (feat m c) (clsW m c) (stgW m c)) := by
  have h127 : t.val % 128 = 127 := (flush0_3 t).mp hf
  have hN : t.val < 256 := lt_of_lt_of_eq t.isLt N_0
  obtain ⟨-, -, -, -, e0, e1, e2, -⟩ := idx_facts t
  show (cfg0.win 3).cut (grid0.coords t) ((dats m 0 c).after 3 t) = _
  rw [after0_3]
  funext y
  obtain ⟨z, col, kk, rfl⟩ : ∃ (z : Fin 1) (col : Fin 256) (kk : Fin 1024), y = ix3 z col kk := ⟨y 0, y 1, y 2, eq_ix3 y⟩
  have hemb : ((cfg0.win 3).blk t).view.emb (ix3 z col kk) = ix3 (⟨t.val / 128, by omega⟩ : Fin 2) col kk := by
    funext a; apply Fin.ext
    match a with
    | ⟨0, _⟩ => show win0_3.index t (0 : Fin 3) * 1 + 1 * z.val = t.val / 128; rw [e0]; have := z.isLt; omega
    | ⟨1, _⟩ => show win0_3.index t (1 : Fin 3) * 256 + 1 * col.val = col.val; rw [e1]; omega
    | ⟨2, _⟩ => show win0_3.index t (2 : Fin 3) * 1024 + 1 * kk.val = kk.val; rw [e2]; omega
  show (outsAt0 m c t.val t.isLt).1 (ix3 z col kk) = halfSum (feat m c) (clsW m c) (stgW m c) (((cfg0.win 3).blk t).view.emb (ix3 z col kk))
  rw [hemb, (outs_eq m c t.val t.isLt).2.2.1 z col kk, ← accSum_last (feat m c) (clsW m c) (stgW m c) (⟨t.val / 128, by omega⟩ : Fin 2) col kk]
  exact congrArg _ (by show t.val = 128 * (t.val / 128) + 127; omega)

/-- The same for the counts' block. -/
theorem flushed4 (c : Dev nD) (t : Fin cfg0.N) (hf : (cfg0.win 4).flush t = true) :
    (dats m 0 c).flushed 4 t = ((cfg0.win 4).blk t).view.read (Elt Ideal) (halfCnt (clsW m c) (stgW m c)) := by
  have h127 : t.val % 128 = 127 := (flush0_4 t).mp hf
  have hN : t.val < 256 := lt_of_lt_of_eq t.isLt N_0
  obtain ⟨-, -, -, -, -, -, -, e0, e1, e2⟩ := idx_facts t
  show (cfg0.win 4).cut (grid0.coords t) ((dats m 0 c).after 4 t) = _
  rw [after0_4]
  funext y
  obtain ⟨z, j, kk, rfl⟩ : ∃ (z : Fin 1) (j : Fin 4) (kk : Fin 1024), y = ix3 z j kk := ⟨y 0, y 1, y 2, eq_ix3 y⟩
  have hemb : ((cfg0.win 4).blk t).view.emb (ix3 z j kk) = ix3 (⟨t.val / 128, by omega⟩ : Fin 2) j kk := by
    funext a; apply Fin.ext
    match a with
    | ⟨0, _⟩ => show win0_4.index t (0 : Fin 3) * 1 + 1 * z.val = t.val / 128; rw [e0]; have := z.isLt; omega
    | ⟨1, _⟩ => show win0_4.index t (1 : Fin 3) * 4 + 1 * j.val = j.val; rw [e1]; omega
    | ⟨2, _⟩ => show win0_4.index t (2 : Fin 3) * 1024 + 1 * kk.val = kk.val; rw [e2]; omega
  show (outsAt0 m c t.val t.isLt).2.1 (ix3 z j kk) = halfCnt (clsW m c) (stgW m c) (((cfg0.win 4).blk t).view.emb (ix3 z j kk))
  rw [hemb, (outs_eq m c t.val t.isLt).2.2.2 z j kk, ← accCnt_last (clsW m c) (stgW m c) (⟨t.val / 128, by omega⟩ : Fin 2) j kk]
  exact congrArg _ (by show t.val = 128 * (t.val / 128) + 127; omega)

/-- The last point of half h. -/
abbrev lastOf (h : Fin 2) : Fin cfg0.N := ⟨128 * h.val + 127, by rw [show cfg0.N = 256 from N_0]; have := h.isLt; omega⟩

/-- The sums' array ends holding the two halves' sums. -/
theorem final3 (c : Dev nD) : (dats m 0 c).arrAt 3 cfg0.N = halfSum (feat m c) (clsW m c) (stgW m c) :=
  (dats m 0 c).arrAt_eq_of_cover 3 (halfSum (feat m c) (clsW m c) (stgW m c)) (flushed3 m c) fun i => by
    have hi0 : (i 0).val < 2 := (i 0).isLt
    have hi1 : (i 1).val < 256 := (i 1).isLt
    have hi2 : (i 2).val < 1024 := (i 2).isLt
    refine ⟨lastOf ⟨(i 0).val, hi0⟩, (flush0_3 _).mpr (by show (128 * (i 0).val + 127) % 128 = 127; omega), ?_⟩
    obtain ⟨-, -, -, -, e0, e1, e2, -⟩ := idx_facts (lastOf ⟨(i 0).val, hi0⟩)
    show i ∈ ((View.whole main_v0_0).slice (win0_3.rect (lastOf ⟨(i 0).val, hi0⟩))).set
    rw [View.set_slice_whole, Rect.mem_set_unit]
    intro a
    match a with
    | ⟨0, _⟩ => show win0_3.index (lastOf ⟨(i 0).val, hi0⟩) (0 : Fin 3) * 1 ≤ (i 0).val ∧ (i 0).val < win0_3.index (lastOf ⟨(i 0).val, hi0⟩) (0 : Fin 3) * 1 + 1
                rw [e0]; show (128 * (i 0).val + 127) / 128 * 1 ≤ (i 0).val ∧ (i 0).val < (128 * (i 0).val + 127) / 128 * 1 + 1; omega
    | ⟨1, _⟩ => show win0_3.index (lastOf ⟨(i 0).val, hi0⟩) (1 : Fin 3) * 256 ≤ (i 1).val ∧ (i 1).val < win0_3.index (lastOf ⟨(i 0).val, hi0⟩) (1 : Fin 3) * 256 + 256
                rw [e1]; omega
    | ⟨2, _⟩ => show win0_3.index (lastOf ⟨(i 0).val, hi0⟩) (2 : Fin 3) * 1024 ≤ (i 2).val ∧ (i 2).val < win0_3.index (lastOf ⟨(i 0).val, hi0⟩) (2 : Fin 3) * 1024 + 1024
                rw [e2]; omega

/-- The counts' array ends holding the two halves' counts. -/
theorem final4 (c : Dev nD) : (dats m 0 c).arrAt 4 cfg0.N = halfCnt (clsW m c) (stgW m c) :=
  (dats m 0 c).arrAt_eq_of_cover 4 (halfCnt (clsW m c) (stgW m c)) (flushed4 m c) fun i => by
    have hi0 : (i 0).val < 2 := (i 0).isLt
    have hi1 : (i 1).val < 4 := (i 1).isLt
    have hi2 : (i 2).val < 1024 := (i 2).isLt
    refine ⟨lastOf ⟨(i 0).val, hi0⟩, (flush0_4 _).mpr (by show (128 * (i 0).val + 127) % 128 = 127; omega), ?_⟩
    obtain ⟨-, -, -, -, -, -, -, e0, e1, e2⟩ := idx_facts (lastOf ⟨(i 0).val, hi0⟩)
    show i ∈ ((View.whole main_v0_1).slice (win0_4.rect (lastOf ⟨(i 0).val, hi0⟩))).set
    rw [View.set_slice_whole, Rect.mem_set_unit]
    intro a
    match a with
    | ⟨0, _⟩ => show win0_4.index (lastOf ⟨(i 0).val, hi0⟩) (0 : Fin 3) * 1 ≤ (i 0).val ∧ (i 0).val < win0_4.index (lastOf ⟨(i 0).val, hi0⟩) (0 : Fin 3) * 1 + 1
                rw [e0]; show (128 * (i 0).val + 127) / 128 * 1 ≤ (i 0).val ∧ (i 0).val < (128 * (i 0).val + 127) / 128 * 1 + 1; omega
    | ⟨1, _⟩ => show win0_4.index (lastOf ⟨(i 0).val, hi0⟩) (1 : Fin 3) * 4 ≤ (i 1).val ∧ (i 1).val < win0_4.index (lastOf ⟨(i 0).val, hi0⟩) (1 : Fin 3) * 4 + 4
                rw [e1]; omega
    | ⟨2, _⟩ => show win0_4.index (lastOf ⟨(i 0).val, hi0⟩) (2 : Fin 3) * 1024 ≤ (i 2).val ∧ (i 2).val < win0_4.index (lastOf ⟨(i 0).val, hi0⟩) (2 : Fin 3) * 1024 + 1024
                rw [e2]; omega

end Cert.KernelIdeal.Acc

end
-- ==== Proof.KTail.lean ====
/-
  The host lines after the kernel's region, read at an index over the extended reals: the two accumulated arrays summed
  over their leading axis of extent two, re-laid from (stage, feature) columns by class to class by stage by feature,
  cut to the 1000 classes, and blended into the prototypes and added to the counts.
-/
import proofs.«413451_j1700807049518_3_alg».proof.Proof.Gen.KernelIdeal.Frame
import proofs.«413451_j1700807049518_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Tail

open Idealize.ShloMosaic Idealize.ShloMosaic.TcCoe Idealize.SL.Sem Idealize.ShloMosaic.ValueIdx Cert.KernelIdeal Cert.KernelIdeal.Gen Cert.Agg
open Idealize.ShloMosaic.Pipeline (Dat)

/-- The sums over the leading axis of the first array. -/
private def red0 (A0 : S2x256x1024.Idx → EReal) : S256x1024.Idx → EReal :=
  Host.reduceAdd (F := Ideal) (φ := .f32) A0 (constant (F := Ideal) S_ .f32 0x00000000#32) reducesTo_S2x256x1024_S256x1024_d0 h_S_

private theorem red0_apply (A0 : S2x256x1024.Idx → EReal) (r : Fin 256) (k : Fin 1024) :
    red0 A0 (ix2 r k) = A0 (ix3 (0 : Fin 2) r k) + A0 (ix3 (1 : Fin 2) r k) := by
  have hR : S2x256x1024.Reduces [0] S256x1024 := by decide
  unfold red0
  show Ideal.hostReduceAdd reducesTo_S2x256x1024_S256x1024_d0 A0 (Ideal.ofBits .f32 0x00000000#32) (ix2 r k) = _
  rw [Ideal.hostReduceAdd_single reducesTo_S2x256x1024_S256x1024_d0 hR, Ideal.ofBits_zero_f32, zero_add]
  show (∑ q : Fin 2, A0 (hR.lift (ix2 r k) q)) = _
  rw [Fin.sum_univ_two]
  have e0 : hR.lift (ix2 r k) (0 : Fin 2) = ix3 (0 : Fin 2) r k := by
    funext a; match a with | ⟨0, _⟩ => rfl | ⟨1, _⟩ => rfl | ⟨2, _⟩ => rfl
  have e1 : hR.lift (ix2 r k) (1 : Fin 2) = ix3 (1 : Fin 2) r k := by
    funext a; match a with | ⟨0, _⟩ => rfl | ⟨1, _⟩ => rfl | ⟨2, _⟩ => rfl
  rw [e0, e1]

/-- The sums over the leading axis of the second array. -/
private def red1 (A1 : S2x4x1024.Idx → EReal) : S4x1024.Idx → EReal :=
  Host.reduceAdd (F := Ideal) (φ := .f32) A1 (constant (F := Ideal) S_ .f32 0x00000000#32) reducesTo_S2x4x1024_S4x1024_d0 h_S_

private theorem red1_apply (A1 : S2x4x1024.Idx → EReal) (j : Fin 4) (k : Fin 1024) :
    red1 A1 (ix2 j k) = A1 (ix3 (0 : Fin 2) j k) + A1 (ix3 (1 : Fin 2) j k) := by
  have hR : S2x4x1024.Reduces [0] S4x1024 := by decide
  unfold red1
  show Ideal.hostReduceAdd reducesTo_S2x4x1024_S4x1024_d0 A1 (Ideal.ofBits .f32 0x00000000#32) (ix2 j k) = _
  rw [Ideal.hostReduceAdd_single reducesTo_S2x4x1024_S4x1024_d0 hR, Ideal.ofBits_zero_f32, zero_add]
  show (∑ q : Fin 2, A1 (hR.lift (ix2 j k) q)) = _
  rw [Fin.sum_univ_two]
  have e0 : hR.lift (ix2 j k) (0 : Fin 2) = ix3 (0 : Fin 2) j k := by
    funext a; match a with | ⟨0, _⟩ => rfl | ⟨1, _⟩ => rfl | ⟨2, _⟩ => rfl
  have e1 : hR.lift (ix2 j k) (1 : Fin 2) = ix3 (1 : Fin 2) j k := by
    funext a; match a with | ⟨0, _⟩ => rfl | ⟨1, _⟩ => rfl | ⟨2, _⟩ => rfl
  rw [e0, e1]

/-- The first array's sums re-laid class by stage by feature. -/
private def lay0 (A0 : S2x256x1024.Idx → EReal) : S1000x4x64.Idx → EReal :=
  transpose S1000x4x64 [2, 0, 1]
    (extractStridedSlice S4x64x1000 ![0, 0, 0] (shapeCast S4x64x1024 (red0 A0) shapeCasts_S256x1024_S4x64x1024) slices_S4x64x1024_S4x64x1000_0_0_0)
    transposes_S4x64x1000_S1000x4x64_2_0_1

private theorem lay0_apply (A0 : S2x256x1024.Idx → EReal) (k : Fin 1000) (j : Fin 4) (d : Fin 64) :
    lay0 A0 (ix3 k j d)
      = A0 (ix3 (0 : Fin 2) (⟨64 * j.val + d.val, by have := j.isLt; have := d.isLt; omega⟩ : Fin 256) (⟨k.val, by have := k.isLt; omega⟩ : Fin 1024))
        + A0 (ix3 (1 : Fin 2) (⟨64 * j.val + d.val, by have := j.isLt; have := d.isLt; omega⟩ : Fin 256) (⟨k.val, by have := k.isLt; omega⟩ : Fin 1024)) := by
  unfold lay0
  refine (transpose_apply _ _ transposes_S4x64x1000_S1000x4x64_2_0_1 (ix3 k j d) (ix3 j d k) (fun b => match b with
    | ⟨0, _⟩ => rfl | ⟨1, _⟩ => rfl | ⟨2, _⟩ => rfl)).trans ?_
  refine (extractStridedSlice_apply _ _ slices_S4x64x1024_S4x64x1000_0_0_0 (ix3 j d k)
    (ix3 j d (⟨k.val, by have := k.isLt; omega⟩ : Fin 1024)) (fun a => match a with
    | ⟨0, _⟩ => by show j.val = 0 + j.val; omega
    | ⟨1, _⟩ => by show d.val = 0 + d.val; omega
    | ⟨2, _⟩ => by show k.val = 0 + k.val; omega)).trans ?_
  refine (shapeCast_apply (red0 A0) shapeCasts_S256x1024_S4x64x1024 (ix3 j d (⟨k.val, by have := k.isLt; omega⟩ : Fin 1024))
    (ix2 (⟨64 * j.val + d.val, by have := j.isLt; have := d.isLt; omega⟩ : Fin 256) (⟨k.val, by have := k.isLt; omega⟩ : Fin 1024))
    (by rewrite [Shape.rowMajor_val_two, Shape.rowMajor_val_three]
        show (64 * j.val + d.val) * 1024 + k.val = (j.val * 64 + d.val) * 1024 + k.val
        omega)).trans ?_
  exact red0_apply A0 _ _

/-- The second array's sums re-laid class by stage. -/
private def lay1 (A1 : S2x4x1024.Idx → EReal) : S1000x4.Idx → EReal :=
  transpose S1000x4 [1, 0] (extractStridedSlice S4x1000 ![0, 0] (red1 A1) slices_S4x1024_S4x1000_0_0) transposes_S4x1000_S1000x4_1_0

private theorem lay1_apply (A1 : S2x4x1024.Idx → EReal) (k : Fin 1000) (j : Fin 4) :
    lay1 A1 (ix2 k j)
      = A1 (ix3 (0 : Fin 2) j (⟨k.val, by have := k.isLt; omega⟩ : Fin 1024))
        + A1 (ix3 (1 : Fin 2) j (⟨k.val, by have := k.isLt; omega⟩ : Fin 1024)) := by
  unfold lay1
  refine (transpose_apply _ _ transposes_S4x1000_S1000x4_1_0 (ix2 k j) (ix2 j k) (fun b => match b with
    | ⟨0, _⟩ => rfl | ⟨1, _⟩ => rfl)).trans ?_
  refine (extractStridedSlice_apply _ _ slices_S4x1024_S4x1000_0_0 (ix2 j k)
    (ix2 j (⟨k.val, by have := k.isLt; omega⟩ : Fin 1024)) (fun a => match a with
    | ⟨0, _⟩ => by show j.val = 0 + j.val; omega
    | ⟨1, _⟩ => by show k.val = 0 + k.val; omega)).trans ?_
  exact red1_apply A1 _ _

/-- The counts bounded below by one, spread over the features. -/
private def den (A1 : S2x4x1024.Idx → EReal) : S1000x4x64.Idx → EReal :=
  broadcastInDim S1000x4x64 ![0, 1, 2] bcast_S1000x4x1_S1000x4x64_0_1_2
    (broadcastInDim S1000x4x1 ![0, 1] bcast_S1000x4_S1000x4x1_0_1
      (maximumf (F := Ideal) (φ := .f32) (lay1 A1)
        (broadcastInDim S1000x4 ![] bcast_S_S1000x4 (constant (F := Ideal) S_ .f32 0x3F800000#32))))

private theorem den_apply (A1 : S2x4x1024.Idx → EReal) (k : Fin 1000) (j : Fin 4) (d : Fin 64) :
    den A1 (ix3 k j d)
      = FloatOps.maximumf (F := Ideal) (φ := .f32) (lay1 A1 (ix2 k j)) (FloatOps.ofBits (F := Ideal) .f32 0x3F800000#32) := by
  unfold den
  refine (broadcastInDim_apply _ bcast_S1000x4x1_S1000x4x64_0_1_2 _ (ix3 k j d) (ix3 k j (0 : Fin 1)) (fun a => match a with
    | ⟨0, _⟩ => by show k.val = if (1000 : Nat) = 1 then 0 else k.val; rw [if_neg (by decide)]
    | ⟨1, _⟩ => by show j.val = if (4 : Nat) = 1 then 0 else j.val; rw [if_neg (by decide)]
    | ⟨2, _⟩ => by show 0 = if (1 : Nat) = 1 then 0 else d.val; rw [if_pos rfl])).trans ?_
  refine (broadcastInDim_apply _ bcast_S1000x4_S1000x4x1_0_1 _ (ix3 k j (0 : Fin 1)) (ix2 k j) (fun a => match a with
    | ⟨0, _⟩ => by show k.val = if (1000 : Nat) = 1 then 0 else k.val; rw [if_neg (by decide)]
    | ⟨1, _⟩ => by show j.val = if (4 : Nat) = 1 then 0 else j.val; rw [if_neg (by decide)])).trans ?_
  rfl

/-- Where the count is positive, spread over the features. -/
private def cnd (A1 : S2x4x1024.Idx → EReal) : S1000x4x64.Idx → BitVec 1 :=
  broadcastInDim S1000x4x64 ![0, 1, 2] bcast_S1000x4x1_S1000x4x64_0_1_2
    (broadcastInDim S1000x4x1 ![0, 1] bcast_S1000x4_S1000x4x1_0_1
      (cmpf (F := Ideal) (φ := .f32) .ogt (lay1 A1)
        (broadcastInDim S1000x4 ![] bcast_S_S1000x4 (constant (F := Ideal) S_ .f32 0x00000000#32))))

private theorem cnd_apply (A1 : S2x4x1024.Idx → EReal) (k : Fin 1000) (j : Fin 4) (d : Fin 64) :
    cnd A1 (ix3 k j d)
      = FloatOps.cmpf (F := Ideal) (φ := .f32) .ogt (lay1 A1 (ix2 k j)) (FloatOps.ofBits (F := Ideal) .f32 0x00000000#32) := by
  unfold cnd
  refine (broadcastInDim_apply _ bcast_S1000x4x1_S1000x4x64_0_1_2 _ (ix3 k j d) (ix3 k j (0 : Fin 1)) (fun a => match a with
    | ⟨0, _⟩ => by show k.val = if (1000 : Nat) = 1 then 0 else k.val; rw [if_neg (by decide)]
    | ⟨1, _⟩ => by show j.val = if (4 : Nat) = 1 then 0 else j.val; rw [if_neg (by decide)]
    | ⟨2, _⟩ => by show 0 = if (1 : Nat) = 1 then 0 else d.val; rw [if_pos rfl])).trans ?_
  refine (broadcastInDim_apply _ bcast_S1000x4_S1000x4x1_0_1 _ (ix3 k j (0 : Fin 1)) (ix2 k j) (fun a => match a with
    | ⟨0, _⟩ => by show k.val = if (1000 : Nat) = 1 then 0 else k.val; rw [if_neg (by decide)]
    | ⟨1, _⟩ => by show j.val = if (4 : Nat) = 1 then 0 else j.val; rw [if_neg (by decide)])).trans ?_
  rfl

/-- The host lines' first result, as a function of the two arrays the region leaves and the prototypes. -/
private def tailProtos (A0 : S2x256x1024.Idx → EReal) (A1 : S2x4x1024.Idx → EReal) (p : S1000x4x64.Idx → EReal) : S1000x4x64.Idx → EReal :=
  select (cnd A1)
    (addf (F := Ideal) (φ := .f32)
      (mulf (F := Ideal) (φ := .f32) p (broadcastInDim S1000x4x64 ![] bcast_S_S1000x4x64 (constant (F := Ideal) S_ .f32 0x3F7D70A4#32)))
      (mulf (F := Ideal) (φ := .f32) (broadcastInDim S1000x4x64 ![] bcast_S_S1000x4x64 (constant (F := Ideal) S_ .f32 0x3C23D70A#32))
        (Host.divf (F := Ideal) (φ := .f32) (lay0 A0) (den A1))))
    p

private theorem tailProtos_apply (A0 : S2x256x1024.Idx → EReal) (A1 : S2x4x1024.Idx → EReal) (p : S1000x4x64.Idx → EReal)
    (k : Fin 1000) (j : Fin 4) (d : Fin 64) :
    tailProtos A0 A1 p (ix3 k j d) = blend (p (ix3 k j d)) (lay0 A0 (ix3 k j d)) (lay1 A1 (ix2 k j)) := by
  show Scalar.select (cnd A1 (ix3 k j d))
      (FloatOps.addf (F := Ideal) (φ := .f32)
        (FloatOps.mulf (F := Ideal) (φ := .f32) (p (ix3 k j d)) (FloatOps.ofBits (F := Ideal) .f32 0x3F7D70A4#32))
        (FloatOps.mulf (F := Ideal) (φ := .f32) (FloatOps.ofBits (F := Ideal) .f32 0x3C23D70A#32)
          (FloatOps.hostDivf (F := Ideal) (φ := .f32) (lay0 A0 (ix3 k j d)) (den A1 (ix3 k j d)))))
      (p (ix3 k j d)) = _
  rw [cnd_apply, den_apply]
  rfl

/-- The host lines' second result. -/
private def tailCounts (A1 : S2x4x1024.Idx → EReal) (q : S1000x4.Idx → EReal) : S1000x4.Idx → EReal :=
  addf (F := Ideal) (φ := .f32) q (lay1 A1)

private theorem tailCounts_apply (A1 : S2x4x1024.Idx → EReal) (q : S1000x4.Idx → EReal) (k : Fin 1000) (j : Fin 4) :
    tailCounts A1 q (ix2 k j) = HAdd.hAdd (α := EReal) (β := EReal) (q (ix2 k j)) (lay1 A1 (ix2 k j)) := rfl

/-- The lines after the region compute the first result from whatever the three buffers they read hold. -/
private theorem after_v21 (W : Valuation τ sig (Elt Ideal)) :
    StableHlo.after (List.flatten [hostOps1, hostOps1_1, hostOps1_2]) W (Proc.devRef .tc main_v21)
      = tailProtos (W (Proc.devRef .tc main_v0_0)) (W (Proc.devRef .tc main_v0_1)) (W (Proc.devRef .tc main_arg3)) := by
  simp only [hostOps1, hostOps1_1, hostOps1_2, List.flatten_cons, List.flatten_nil, List.append_nil, List.cons_append, List.nil_append]
  after_results_simp
  rfl

/-- The lines after the region compute the second result from whatever the two buffers they read hold. -/
private theorem after_v22 (W : Valuation τ sig (Elt Ideal)) :
    StableHlo.after (List.flatten [hostOps1, hostOps1_1, hostOps1_2]) W (Proc.devRef .tc main_v22)
      = tailCounts (W (Proc.devRef .tc main_v0_1)) (W (Proc.devRef .tc main_arg4)) := by
  simp only [hostOps1, hostOps1_1, hostOps1_2, List.flatten_cons, List.flatten_nil, List.append_nil, List.cons_append, List.nil_append]
  after_results_simp
  rfl

variable (m : (ℓ : Loc nD τ sig) → Buf (Elt Ideal) ℓ)

/-- The first result at (k, j, d), from the two arrays the region leaves. -/
theorem tail_v21 (c : Dev nD) (A0 : S2x256x1024.Idx → EReal) (A1 : S2x4x1024.Idx → EReal)
    (h0 : (dats m 0 c).arrAt 3 cfg0.N = A0) (h1 : (dats m 0 c).arrAt 4 cfg0.N = A1) (k : Fin 1000) (j : Fin 4) (d : Fin 64) :
    Pipeline.afterTail₀ cfgs (dats m) 0 (V0 m) [hostOps1, hostOps1_1, hostOps1_2] c main_v21 (ix3 k j d)
      = blend (m ((c : Thread nD τ).loc main_arg3) (ix3 k j d))
          (A0 (ix3 (0 : Fin 2) (⟨64 * j.val + d.val, by have := j.isLt; have := d.isLt; omega⟩ : Fin 256) (⟨k.val, by have := k.isLt; omega⟩ : Fin 1024))
            + A0 (ix3 (1 : Fin 2) (⟨64 * j.val + d.val, by have := j.isLt; have := d.isLt; omega⟩ : Fin 256) (⟨k.val, by have := k.isLt; omega⟩ : Fin 1024)))
          (A1 (ix3 (0 : Fin 2) j (⟨k.val, by have := k.isLt; omega⟩ : Fin 1024))
            + A1 (ix3 (1 : Fin 2) j (⟨k.val, by have := k.isLt; omega⟩ : Fin 1024))) := by
  have e0 : Pipeline.withArrays (cfgs 0).spec c (V0 m c) (fun w => (dats m 0 c).arrAt w (cfgs 0).N) (Proc.devRef .tc main_v0_0) = A0 :=
    (Pipeline.withArrays_arr spec0 launch0.win.arr_inj c _ _ 3).trans h0
  have e1 : Pipeline.withArrays (cfgs 0).spec c (V0 m c) (fun w => (dats m 0 c).arrAt w (cfgs 0).N) (Proc.devRef .tc main_v0_1) = A1 :=
    (Pipeline.withArrays_arr spec0 launch0.win.arr_inj c _ _ 4).trans h1
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  rw [after_v21, e0, e1, e3, tailProtos_apply, lay0_apply, lay1_apply]

/-- The second result at (k, j). -/
theorem tail_v22 (c : Dev nD) (A1 : S2x4x1024.Idx → EReal)
    (h1 : (dats m 0 c).arrAt 4 cfg0.N = A1) (k : Fin 1000) (j : Fin 4) :
    Pipeline.afterTail₀ cfgs (dats m) 0 (V0 m) [hostOps1, hostOps1_1, hostOps1_2] c main_v22 (ix2 k j)
      = HAdd.hAdd (α := EReal) (β := EReal) (m ((c : Thread nD τ).loc main_arg4) (ix2 k j))
          (A1 (ix3 (0 : Fin 2) j (⟨k.val, by have := k.isLt; omega⟩ : Fin 1024))
            + A1 (ix3 (1 : Fin 2) j (⟨k.val, by have := k.isLt; omega⟩ : Fin 1024))) := by
  have e1 : Pipeline.withArrays (cfgs 0).spec c (V0 m c) (fun w => (dats m 0 c).arrAt w (cfgs 0).N) (Proc.devRef .tc main_v0_1) = A1 :=
    (Pipeline.withArrays_arr spec0 launch0.win.arr_inj c _ _ 4).trans h1
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  rw [after_v22, e1, e4, tailCounts_apply, lay1_apply]

end Cert.KernelIdeal.Tail

end
-- ==== Proof.Bridge.lean ====
/-
  Two regroupings of one sum. Under the label ranges (class word below 1000, stage word below 4, unsigned) a row's flat
  segment word 4 class + stage, read signed, is 4 k + j exactly when its class is k and its stage is j; and the rows
  split into two halves of 128 tiles of 4096 rows, so the two halves' accumulated sums add up to the segment sum.
-/
import proofs.«413451_j1700807049518_3_alg».proof.Proof.Spec
import Idealize.ShloMosaic.Lib.ValueIdx
import Idealize.ShloMosaic.Lib.StableHlo.Predicate
import Mathlib.Algebra.BigOperators.Fin
import Mathlib.Data.Fintype.BigOperators
import Mathlib.Logic.Equiv.Fin.Basic

set_option maxRecDepth 16384

noncomputable section

open scoped BigOperators

namespace Cert.Agg

open Idealize.ShloMosaic Idealize.ShloMosaic.ValueIdx

variable (f : (⟨2, ![1048576, 64]⟩ : Shape).Idx → EReal) (cls stg : (⟨1, ![1048576]⟩ : Shape).Idx → BitVec 32)

/-- A sum over a product range a · b is the double sum over the quotient i and the remainder r of the index b i + r. -/
private theorem sum_fin_mul (a b : Nat) (g : Nat → EReal) :
    ∑ n : Fin (a * b), g n.val = ∑ i : Fin a, ∑ r : Fin b, g (b * i.val + r.val) := by
  rw [← Fintype.sum_prod_type' (fun (i : Fin a) (r : Fin b) => g (b * i.val + r.val))]
  symm
  apply Fintype.sum_equiv finProdFinEquiv
  intro x
  simp only [finProdFinEquiv_apply_val]
  rw [Nat.add_comm]

/-- The rows are 256 tiles of 4096, and the tiles are two halves of 128: a sum over the rows is the sum of the two
    halves' sums over their tiles' rows. -/
private theorem regroup (g : Nat → EReal) :
    (∑ t : Fin 128, ∑ r : Fin 4096, g (4096 * (128 * 0 + t.val) + r.val))
      + (∑ t : Fin 128, ∑ r : Fin 4096, g (4096 * (128 * 1 + t.val) + r.val))
      = ∑ n : Fin 1048576, g n.val := by
  have h1 : ∑ n : Fin 1048576, g n.val = ∑ i : Fin 256, ∑ r : Fin 4096, g (4096 * i.val + r.val) :=
    sum_fin_mul 256 4096 g
  have h2 : ∑ i : Fin 256, (fun m : Nat => ∑ r : Fin 4096, g (4096 * m + r.val)) i.val
      = ∑ h : Fin 2, ∑ t : Fin 128, (fun m : Nat => ∑ r : Fin 4096, g (4096 * m + r.val)) (128 * h.val + t.val) :=
    sum_fin_mul 2 128 (fun m : Nat => ∑ r : Fin 4096, g (4096 * m + r.val))
  rw [h1]
  simp only [] at h2
  rw [h2, Fin.sum_univ_two]
  rfl

/-- The summand of a segment's sum at a natural number: the value v at the row when the row's class is k and its stage
    is j, zero otherwise (and zero past the last row). -/
private def seg (cls stg : (⟨1, ![1048576]⟩ : Shape).Idx → BitVec 32) (k : Fin 1000) (j : Fin 4)
    (v : Fin 1048576 → EReal) (n : Nat) : EReal :=
  if h : n < 1048576 then (if cls (ix1 ⟨n, h⟩) = wd k.val ∧ stg (ix1 ⟨n, h⟩) = wd j.val then v ⟨n, h⟩ else 0) else 0

private theorem sum_seg (k : Fin 1000) (j : Fin 4) (v : Fin 1048576 → EReal) :
    ∑ n : Fin 1048576, seg cls stg k j v n.val
      = ∑ n : Fin 1048576, if cls (ix1 n) = wd k.val ∧ stg (ix1 n) = wd j.val then v n else 0 := by
  apply Finset.sum_congr rfl
  intro n _
  unfold seg
  rw [dif_pos n.isLt]

/-- One tile's contribution to the sums is the sum of the segment's summands over the tile's rows. -/
private theorem tileSumAt_eq (k : Fin 1000) (j : Fin 4) (d : Fin 64) (b : Fin 256) :
    tileSumAt f cls stg b (⟨64 * j.val + d.val, by have := j.isLt; have := d.isLt; omega⟩ : Fin 256)
        (⟨k.val, by have := k.isLt; omega⟩ : Fin 1024)
      = ∑ r : Fin 4096, seg cls stg k j (fun n => f (ix2 n d)) (4096 * b.val + r.val) := by
  unfold tileSumAt tileSum rowBlk vecBlk
  apply Finset.sum_congr rfl
  intro r _
  have hb := b.isLt
  have hr := r.isLt
  have hj := j.isLt
  have hd := d.isLt
  have e1 : (64 * j.val + d.val) / 64 = j.val := by omega
  have e2 : (64 * j.val + d.val) % 64 = d.val := by omega
  have e3 : (⟨(64 * j.val + d.val) % 64, Nat.mod_lt _ (by decide)⟩ : Fin 64) = d := Fin.ext e2
  have hlt : 4096 * b.val + r.val < 1048576 := by omega
  unfold seg
  rw [dif_pos hlt]
  show (if cls (ix1 ⟨4096 * b.val + r.val, _⟩) = wd k.val ∧ stg (ix1 ⟨4096 * b.val + r.val, _⟩) = wd ((64 * j.val + d.val) / 64)
      then f (ix2 ⟨4096 * b.val + r.val, _⟩ ⟨(64 * j.val + d.val) % 64, _⟩) else 0) = _
  rw [e1, e3]

/-- One tile's contribution to the counts is the sum of the segment's unit summands over the tile's rows. -/
private theorem tileCntAt_eq (k : Fin 1000) (j : Fin 4) (b : Fin 256) :
    tileCntAt cls stg b j (⟨k.val, by have := k.isLt; omega⟩ : Fin 1024)
      = ∑ r : Fin 4096, seg cls stg k j (fun _ => 1) (4096 * b.val + r.val) := by
  unfold tileCntAt tileCnt vecBlk
  apply Finset.sum_congr rfl
  intro r _
  have hb := b.isLt
  have hr := r.isLt
  have hlt : 4096 * b.val + r.val < 1048576 := by omega
  unfold seg
  rw [dif_pos hlt]

/-- Under the label ranges a row's flat word, read signed, is 4 k + j exactly when its class is k and its stage is j. -/
private theorem segWord_iff (hc : ∀ n : Fin 1048576, (cls (ix1 n)).toNat < 1000) (hs : ∀ n : Fin 1048576, (stg (ix1 n)).toNat < 4)
    (k : Fin 1000) (j : Fin 4) (n : Fin 1048576) :
    (segWord cls stg n).toInt = ((4 * k.val + j.val : Nat) : Int)
      ↔ (cls (ix1 n) = wd k.val ∧ stg (ix1 n) = wd j.val) := by
  have h1 := hc n
  have h2 := hs n
  have hk := k.isLt
  have hj := j.isLt
  have hw : (segWord cls stg n).toNat = 4 * (cls (ix1 n)).toNat + (stg (ix1 n)).toNat := by
    unfold segWord IntOp.addi IntOp.muli
    rw [BitVec.toNat_add, BitVec.toNat_mul, BitVec.toNat_ofNat]
    have e4 : (4 : Nat) % 2 ^ 32 = 4 := by norm_num
    rw [e4, Nat.mod_eq_of_lt (a := (cls (ix1 n)).toNat * 4) (by omega), Nat.mod_eq_of_lt (by omega)]
    omega
  rw [StableHlo.Predicate.toInt_eq_toNat_of_lt (by rw [hw]; omega), hw]
  constructor
  · intro h
    have h' : 4 * (cls (ix1 n)).toNat + (stg (ix1 n)).toNat = 4 * k.val + j.val := by exact_mod_cast h
    constructor
    · apply BitVec.eq_of_toNat_eq
      rw [BitVec.toNat_ofNat, Nat.mod_eq_of_lt (by omega)]
      omega
    · apply BitVec.eq_of_toNat_eq
      rw [BitVec.toNat_ofNat, Nat.mod_eq_of_lt (by omega)]
      omega
  · rintro ⟨e1, e2⟩
    rw [e1, e2, BitVec.toNat_ofNat, BitVec.toNat_ofNat, Nat.mod_eq_of_lt (by omega), Nat.mod_eq_of_lt (by omega)]

/-- Under the label ranges the flat-word sum is the segment sum. -/
theorem flatSum_eq_segSum (hc : ∀ n : Fin 1048576, (cls (ix1 n)).toNat < 1000) (hs : ∀ n : Fin 1048576, (stg (ix1 n)).toNat < 4)
    (k : Fin 1000) (j : Fin 4) (d : Fin 64) :
    flatSum f cls stg ⟨4 * k.val + j.val, by have := k.isLt; have := j.isLt; omega⟩ d = segSum f cls stg k j d := by
  unfold flatSum segSum
  apply Finset.sum_congr rfl
  intro n _
  exact if_congr (segWord_iff cls stg hc hs k j n) rfl rfl

/-- Under the label ranges the flat-word count is the segment count. -/
theorem flatCnt_eq_segCnt (hc : ∀ n : Fin 1048576, (cls (ix1 n)).toNat < 1000) (hs : ∀ n : Fin 1048576, (stg (ix1 n)).toNat < 4)
    (k : Fin 1000) (j : Fin 4) :
    flatCnt cls stg ⟨4 * k.val + j.val, by have := k.isLt; have := j.isLt; omega⟩ = segCnt cls stg k j := by
  unfold flatCnt segCnt
  apply Finset.sum_congr rfl
  intro n _
  exact if_congr (segWord_iff cls stg hc hs k j n) rfl rfl

/-- The two halves' sums at column 64 j + d and class k add up to the segment sum (no range hypothesis needed). -/
theorem halfSum_total (k : Fin 1000) (j : Fin 4) (d : Fin 64) :
    halfSum f cls stg (ix3 (0 : Fin 2) (⟨64 * j.val + d.val, by have := j.isLt; have := d.isLt; omega⟩ : Fin 256) (⟨k.val, by have := k.isLt; omega⟩ : Fin 1024))
      + halfSum f cls stg (ix3 (1 : Fin 2) (⟨64 * j.val + d.val, by have := j.isLt; have := d.isLt; omega⟩ : Fin 256) (⟨k.val, by have := k.isLt; omega⟩ : Fin 1024))
      = segSum f cls stg k j d := by
  unfold halfSum segSum
  rw [← sum_seg cls stg k j (fun n => f (ix2 n d)), ← regroup]
  show (∑ t : Fin 128, tileSumAt f cls stg ⟨128 * 0 + t.val, _⟩ (⟨64 * j.val + d.val, _⟩ : Fin 256) (⟨k.val, _⟩ : Fin 1024))
      + (∑ t : Fin 128, tileSumAt f cls stg ⟨128 * 1 + t.val, _⟩ (⟨64 * j.val + d.val, _⟩ : Fin 256) (⟨k.val, _⟩ : Fin 1024)) = _
  simp only [tileSumAt_eq]

/-- The two halves' counts at stage j and class k add up to the segment count. -/
theorem halfCnt_total (k : Fin 1000) (j : Fin 4) :
    halfCnt cls stg (ix3 (0 : Fin 2) j (⟨k.val, by have := k.isLt; omega⟩ : Fin 1024))
      + halfCnt cls stg (ix3 (1 : Fin 2) j (⟨k.val, by have := k.isLt; omega⟩ : Fin 1024))
      = segCnt cls stg k j := by
  unfold halfCnt segCnt
  rw [← sum_seg cls stg k j (fun _ => 1), ← regroup]
  show (∑ t : Fin 128, tileCntAt cls stg ⟨128 * 0 + t.val, _⟩ j (⟨k.val, _⟩ : Fin 1024))
      + (∑ t : Fin 128, tileCntAt cls stg ⟨128 * 1 + t.val, _⟩ j (⟨k.val, _⟩ : Fin 1024)) = _
  simp only [tileCntAt_eq]

end Cert.Agg

end
-- ==== Proof.KernelVal.lean ====
/-
  The idealized kernel program's run, read: its two results are the blended prototypes and the increased counts of the
  specification, and its arguments end unchanged.
-/
import proofs.«413451_j1700807049518_3_alg».proof.Proof.Gen.KernelIdeal.Frame
import proofs.«413451_j1700807049518_3_alg».proof.Proof.Spec
import proofs.«413451_j1700807049518_3_alg».proof.Proof.KAcc
import proofs.«413451_j1700807049518_3_alg».proof.Proof.KTail
import proofs.«413451_j1700807049518_3_alg».proof.Proof.Bridge
import Idealize.ShloMosaic.Lib.ValueIdx
import Idealize.ShloMosaic.Lib.Pipeline.Value

set_option maxRecDepth 16384

noncomputable section

open scoped BigOperators

namespace Cert.KernelIdeal.Val

open Idealize.ShloMosaic Idealize.ShloMosaic.TcCoe Idealize.SL.Sem Idealize.ShloMosaic.ValueIdx Cert.KernelIdeal Cert.KernelIdeal.Gen Cert.KernelIdeal.Acc Cert.KernelIdeal.Tail Cert.Agg
open Idealize.ShloMosaic.Pipeline (Dat)

variable (m : (ℓ : Loc nD τ sig) → Buf (Elt Ideal) ℓ) (ρ : Dev nD → PrngReg)

/-- After the host lines that follow the region, the first result is the specification's blended prototypes:
    the two halves' sums add up to the segment sums, the two halves' counts to the segment counts. -/
theorem v21_eq (c : Dev nD) :
    Pipeline.afterTail₀ cfgs (dats m) 0 (V0 m) [hostOps1, hostOps1_1, hostOps1_2] c main_v21
      = newProtos (feat m c) (clsW m c) (stgW m c) (m ((c : Thread nD τ).loc main_arg3)) := by
  funext y
  obtain ⟨k, j, d, rfl⟩ : ∃ (k : Fin 1000) (j : Fin 4) (d : Fin 64), y = ix3 k j d := ⟨y 0, y 1, y 2, eq_ix3 y⟩
  rw [tail_v21 m c _ _ (final3 m c) (final4 m c) k j d, halfSum_total, halfCnt_total]
  rfl

/-- And the second result is the specification's increased counts. -/
theorem v22_eq (c : Dev nD) :
    Pipeline.afterTail₀ cfgs (dats m) 0 (V0 m) [hostOps1, hostOps1_1, hostOps1_2] c main_v22
      = newCounts (clsW m c) (stgW m c) (m ((c : Thread nD τ).loc main_arg4)) := by
  funext y
  obtain ⟨k, j, rfl⟩ : ∃ (k : Fin 1000) (j : Fin 4), y = ix2 k j := ⟨y 0, y 1, eq_ix2 y⟩
  rw [tail_v22 m c _ (final4 m c) k j, halfCnt_total]
  rfl

/-- The run of the idealized kernel program: every weakly fair execution terminates with the two results at the
    specification's functions of the launch contents of the arguments, and the arguments unchanged. -/
theorem run : θ_run defs (onTc (τ := τ) (main (F := Ideal))) ⟨m, fun _ => 0, ρ⟩ fun r => ∀ c : Dev nD,
      r.2.mem ((c.tc : Thread nD τ).loc main_v21) = newProtos (feat m c) (clsW m c) (stgW m c) (m ((c : Thread nD τ).loc main_arg3))
      ∧ r.2.mem ((c.tc : Thread nD τ).loc main_v22) = newCounts (clsW m c) (stgW m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v21 (Pipeline.mem_restRefs_of main_v21 (by decide) (by decide))).trans (v21_eq m c),
      ((h c).2 main_v22 (Pipeline.mem_restRefs_of main_v22 (by decide) (by decide))).trans (v22_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Val

end
-- ==== Proof.Pre.lean ====
/-
  The precondition, read: beside the finiteness of the float inputs it says that every class word lies in [0, 1000) and
  every stage word in [0, 4), signed; a word in [0, n) signed is below n unsigned.
-/
import proofs.«413451_j1700807049518_3_alg».proof.Pre_finite_inputs
import Idealize.ShloMosaic.Lib.ValueIdx
import Idealize.ShloMosaic.Lib.ReduceAll
import Idealize.ShloMosaic.Lib.StableHlo.Predicate

set_option maxRecDepth 16384

noncomputable section

open scoped BigOperators

namespace Cert.PreRanges

open Idealize.ShloMosaic Idealize.ShloMosaic.ValueIdx Cert.Pre_finite_inputs

/-- A 32-bit word that is at least 0 and below a small literal `k`, both read signed, is below `k` read unsigned. -/
private theorem toNat_lt_of_signed (w : BitVec 32) (k : Nat) (hk : k < 2 ^ 31)
    (h0 : IntOp.cmpi .sge w 0#32 = 1#1) (h1 : IntOp.cmpi .slt w (BitVec.ofNat 32 k) = 1#1) : w.toNat < k := by
  rw [IntOp.cmpi_sge] at h0
  rw [IntOp.cmpi_slt, StableHlo.Predicate.toInt_ofNat_small k hk] at h1
  have z : (0#32 : BitVec 32).toInt = 0 := by decide
  rw [z] at h0
  rw [BitVec.toInt_eq_toNat_cond] at h0 h1
  split at h0 <;> omega

/-- Where the precondition's predicate is all ones, every class word is below 1000 and every stage word below 4. -/
theorem ranges_of_fn {F : FTy → Type} [FloatOps F] [Cert.Pre_finite_inputs.Facts]
    (a0 : FVec F S1048576x64 .f32) (a1 a2 : IVec S1048576 32) (a3 : FVec F S1000x4x64 .f32) (a4 : FVec F S1000x4 .f32)
    (h : Cert.Pre_finite_inputs.fn (F := F) a0 a1 a2 a3 a4 = fun _ => 1#1) (n : Fin 1048576) :
    (a1 (ix1 n)).toNat < 1000 ∧ (a2 (ix1 n)).toNat < 4 := by
  haveI : Subsingleton S_.Idx := ⟨fun a b => funext fun d => d.elim0⟩
  have e := congrFun h ValueIdx.ix0
  dsimp only [Cert.Pre_finite_inputs.fn, Cert.Pre_finite_inputs.fn_part1] at e
  obtain ⟨e1, e26⟩ := IntOp.andi_eq_one.1 e
  obtain ⟨-, e19⟩ := IntOp.andi_eq_one.1 e1
  have p1 := Host.reduce_andi_all _ _ _ _ _ e19 (ix1 n)
  have p2 := Host.reduce_andi_all _ _ _ _ _ e26 (ix1 n)
  obtain ⟨p1a, p1b⟩ := IntOp.andi_eq_one.1 p1
  obtain ⟨p2a, p2b⟩ := IntOp.andi_eq_one.1 p2
  exact ⟨toNat_lt_of_signed (a1 (ix1 n)) 1000 (by norm_num) p1a p1b,
    toNat_lt_of_signed (a2 (ix1 n)) 4 (by norm_num) p2a p2b⟩

end Cert.PreRanges

end
-- ==== Proof.lean ====
/-
  The certificate: a per-class, per-stage running mean of feature rows blended into prototypes.

  Each of the 1048576 rows carries a class word and a stage word. Both programs compute, for every class k below 1000,
  stage j below 4 and feature d below 64, the sum of the d-th feature over the rows of class k and stage j and the number
  of such rows, then replace the prototype entry by 0.99 of itself plus 0.01 of the mean where the count is positive,
  and add the counts to the running counts.

  The kernel computes the sums as products with one-hot matrices: per tile of 4096 rows the features, masked by stage
  into four column groups, are contracted over the rows against the class one-hot, 256 classes at a time, and the result
  is accumulated over the 128 tiles of each half of the rows; the two halves are added afterwards. A product of a
  feature with a 0/1 indicator is the feature or zero, so over the extended reals the accumulated value is exactly the
  sum of the features of the matching rows, whatever the order of the additions (only commutativity and associativity
  of the sum are used; finiteness of the features is not needed).

  The reference scatters every row into segment 4 class + stage of a flat table of 4000 segments. That flat word names
  segment 4 k + j exactly for the rows of class k and stage j only when the words are labels in range: a stage word 4
  beside class 0 would land in class 1. The precondition therefore says, beside finiteness, that every class word is in
  [0, 1000) and every stage word in [0, 4); under it the two programs' sums range over the same rows.
-/
import proofs.«413451_j1700807049518_3_alg».proof.Defs
import proofs.«413451_j1700807049518_3_alg».proof.Proof.Gen.Kernel
import proofs.«413451_j1700807049518_3_alg».proof.Proof.Gen.Kernel.Frame
import proofs.«413451_j1700807049518_3_alg».proof.Proof.Gen.KernelIdeal
import proofs.«413451_j1700807049518_3_alg».proof.Proof.Gen.KernelIdeal.Frame
import proofs.«413451_j1700807049518_3_alg».proof.Proof.Gen.ReferenceIdeal
import proofs.«413451_j1700807049518_3_alg».proof.Proof.Gen.Pre_finite_inputs
import proofs.«413451_j1700807049518_3_alg».proof.Proof.RefRead
import proofs.«413451_j1700807049518_3_alg».proof.Proof.RefVal
import proofs.«413451_j1700807049518_3_alg».proof.Proof.KernelVal
import proofs.«413451_j1700807049518_3_alg».proof.Proof.Pre
import proofs.«413451_j1700807049518_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Agg

/-- Every weakly fair execution of the kernel program terminates and leaves its arguments unchanged. -/
theorem frame_k : Cert.frame_Kernel := fun m ρ _ => Cert.Kernel.Gen.frame m ρ

/-- The same for its idealization. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing in the kernel. -/
theorem preserves : Cert.preserves_Kernel_KernelIdeal := trivial

/-- Over the extended reals, from memories that agree on the arguments, both programs end with the blended prototypes
    and the increased counts of the specification: the kernel by its accumulated one-hot products, the reference by its
    scatters, whose flat segment words name the same rows under the label ranges the precondition states. -/
theorem algebraic : Cert.algebraic_KernelIdeal_ReferenceIdeal := by
  intro m ρ m' ρ' hpre hagree
  refine ⟨fun c => newProtos (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
    fun c => newCounts (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4)),
    Cert.KernelIdeal.Val.run m ρ, ?_⟩
  refine (θ_run Cert.ReferenceIdeal.defs _ _).mono (fun _ h c => ?_) (Cert.ReferenceIdeal.ValueP.run (F := Ideal) m' ρ')
  obtain ⟨h25, h27, ha0, ha1, ha2, ha3, ha4⟩ := h c
  obtain ⟨e0, e1, e2, e3, e4⟩ := hagree c
  have hr := fun n => Cert.PreRanges.ranges_of_fn _ _ _ _ _ (hpre c) n
  refine ⟨h25.trans ?_, h27.trans ?_, ha0, ha1, ha2, ha3, ha4⟩
  · show Cert.ReferenceIdeal.ReadP.val_main_v25 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [e0, e1, e2, e3]
    funext y
    obtain ⟨k, j, d, rfl⟩ : ∃ (k : Fin 1000) (j : Fin 4) (d : Fin 64), y = ix3 k j d := ⟨y 0, y 1, y 2, eq_ix3 y⟩
    rw [Cert.ReferenceIdeal.RefVal.v25_apply, flatSum_eq_segSum _ _ _ (fun n => (hr n).1) (fun n => (hr n).2),
      flatCnt_eq_segCnt _ _ (fun n => (hr n).1) (fun n => (hr n).2)]
    rfl
  · show Cert.ReferenceIdeal.ReadP.val_main_v27 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) = _
    rw [e1, e2, e4]
    funext y
    obtain ⟨k, j, rfl⟩ : ∃ (k : Fin 1000) (j : Fin 4), y = ix2 k j := ⟨y 0, y 1, eq_ix2 y⟩
    rw [Cert.ReferenceIdeal.RefVal.v27_apply, flatCnt_eq_segCnt _ _ (fun n => (hr n).1) (fun n => (hr n).2)]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
